-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x2048 : Shape := ⟨2, ![4096, 2048]⟩
abbrev S4096x1 : Shape := ⟨2, ![4096, 1]⟩
abbrev S838860 : Shape := ⟨1, ![838860]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S838860 : S_.BroadcastsInDim S838860 (![] : Fin 0 → Fin S838860.rank)
  reducesTo_S838860_S_d0 : S838860.ReducesTo [0] S_

variable [Facts]

def fn {F : FTy → Type} [FloatOps F] (main_arg0 : FVec F S4096x4096 .f32) (main_arg1 : IVec S4096x2048 32) (main_arg2 : FVec F S4096x1 .f32) (main_arg3 : FVec F S838860 .f32) (main_arg4 : IVec S838860 32) (main_arg5 : IVec S838860 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S838860 .f32 := Host.absf main_arg3
  let main_cst_2 : FVec F S_ .f32 := constant S_ .f32 0x7F800000#32
  let main_v10 : FVec F S838860 .f32 := broadcastInDim S838860 ![] bcast_S_S838860 main_cst_2
  let main_v11 : IVec S838860 1 := cmpf .olt main_v9 main_v10
  let main_c_3 : IVec S_ 1 := constantI S_ 1 1#1
  let main_v12 : IVec S_ 1 := (fun x v => Host.reduce IntOp.andi x v reducesTo_S838860_S_d0 h_S_) main_v11 main_c_3
  let main_v13 : IVec S_ 1 := andi main_v8 main_v12
  main_v13
-- ==== Kernel.lean ====
abbrev S4096x4096 : Shape := ⟨2, ![4096, 4096]⟩
abbrev S4096x2048 : Shape := ⟨2, ![4096, 2048]⟩
abbrev S4096x1 : Shape := ⟨2, ![4096, 1]⟩
abbrev S838860 : Shape := ⟨1, ![838860]⟩
abbrev S_ : Shape := ⟨0, ![]⟩
abbrev S838860x1 : Shape := ⟨2, ![838860, 1]⟩
abbrev S838860x2 : Shape := ⟨2, ![838860, 2]⟩
abbrev S512x2048 : Shape := ⟨2, ![512, 2048]⟩
abbrev S512x1 : Shape := ⟨2, ![512, 1]⟩
abbrev S512x4096 : Shape := ⟨2, ![512, 4096]⟩
abbrev S512x2048x1 : Shape := ⟨3, ![512, 2048, 1]⟩
abbrev S512x2048x2 : Shape := ⟨3, ![512, 2048, 2]⟩
abbrev S1024x1024 : Shape := ⟨2, ![1024, 1024]⟩

abbrev nBuf : Space → Nat
  | .hbm => 32
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x2048, .i32⟩
  | .hbm, ⟨2, _⟩ => ⟨S4096x1, .f32⟩
  | .hbm, ⟨3, _⟩ => ⟨S838860, .f32⟩
  | .hbm, ⟨4, _⟩ => ⟨S838860, .i32⟩
  | .hbm, ⟨5, _⟩ => ⟨S838860, .i32⟩
  | .hbm, ⟨6, _⟩ => ⟨S_, .f32⟩
  | .hbm, ⟨7, _⟩ => ⟨S4096x4096, .f32⟩
  | .hbm, ⟨8, _⟩ => ⟨S_, .f32⟩
  | .hbm, ⟨9, _⟩ => ⟨S838860, .f32⟩
  | .hbm, ⟨10, _⟩ => ⟨S838860, .f32⟩
  | .hbm, ⟨11, _⟩ => ⟨S_, .i32⟩
  | .hbm, ⟨12, _⟩ => ⟨S838860, .i32⟩
  | .hbm, ⟨13, _⟩ => ⟨S838860, .i1⟩
  | .hbm, ⟨14, _⟩ => ⟨S_, .i32⟩
  | .hbm, ⟨15, _⟩ => ⟨S838860, .i32⟩
  | .hbm, ⟨16, _⟩ => ⟨S838860, .i32⟩
  | .hbm, ⟨17, _⟩ => ⟨S838860, .i32⟩
  | .hbm, ⟨18, _⟩ => ⟨S_, .i32⟩
  | .hbm, ⟨19, _⟩ => ⟨S838860, .i32⟩
  | .hbm, ⟨20, _⟩ => ⟨S838860, .i1⟩
  | .hbm, ⟨21, _⟩ => ⟨S_, .i32⟩
  | .hbm, ⟨22, _⟩ => ⟨S838860, .i32⟩
  | .hbm, ⟨23, _⟩ => ⟨S838860, .i32⟩
  | .hbm, ⟨24, _⟩ => ⟨S838860, .i32⟩
  | .hbm, ⟨25, _⟩ => ⟨S838860x1, .i32⟩
  | .hbm, ⟨26, _⟩ => ⟨S838860x1, .i32⟩
  | .hbm, ⟨27, _⟩ => ⟨S838860x2, .i32⟩
  | .hbm, ⟨28, _⟩ => ⟨S4096x4096, .f32⟩
  | .hbm, ⟨29, _⟩ => ⟨S4096x4096, .bf16⟩
  | .hbm, ⟨30, _⟩ => ⟨S4096x4096, .bf16⟩
  | .hbm, ⟨31, _⟩ => ⟨S4096x4096, .f32⟩
  | .local _ .vmem, ⟨0, _⟩ => ⟨S512x2048, .i32⟩
  | .local _ .vmem, ⟨1, _⟩ => ⟨S512x2048, .i32⟩
  | .local _ .vmem, ⟨2, _⟩ => ⟨S512x1, .f32⟩
  | .local _ .vmem, ⟨3, _⟩ => ⟨S512x1, .f32⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S_S4096x4096 : S_.BroadcastsInDim S4096x4096 (![] : Fin 0 → Fin S4096x4096.rank)
  bcast_S_S838860 : S_.BroadcastsInDim S838860 (![] : Fin 0 → Fin S838860.rank)
  bcast_S838860_S838860x1_0 : S838860.BroadcastsInDim S838860x1 (![0] : Fin 1 → Fin S838860x1.rank)
  concatenates_S838860x1_S838860x1_S838860x2_d1 : Shape.Concatenates [S838860x1, S838860x1] S838860x2 1
  inb_S512x2048_S512x2048_0_0 : ∀ a, (![0, 0] : Fin 2 → Nat) a + S512x2048.size a ≤ S512x2048.size a
  h_S512x2048 : 0 < S512x2048.numel
  shapeCasts_S512x2048_S512x2048x1 : S512x2048.ShapeCasts S512x2048x1
  concatenates_S512x2048x1_S512x2048x1_S512x2048x2_d2 : Shape.Concatenates [S512x2048x1, S512x2048x1] S512x2048x2 2
  shapeCasts_S512x2048x2_S512x4096 : S512x2048x2.ShapeCasts S512x4096
  inb_S512x1_S512x1_0_0 : ∀ a, (![0, 0] : Fin 2 → Nat) a + S512x1.size a ≤ S512x1.size a
  h_S512x1 : 0 < S512x1.numel
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S4096x4096_S838860x2_S838860_n_01_01_1_wf : ScatterDims.WF S4096x4096 S838860x2 S838860 [] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .i32 = 32 ∨ (Rect.block (s := S4096x2048) S512x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def scatter_S4096x4096_S838860x2_S838860_n_01_01_1 : ScatterDims S4096x4096 S838860x2 S838860 where
  updateWindowDims := []
  insertedWindowDims := [0, 1]
  scatterDimsToOperandDims := [0, 1]
  indexVectorDim := 1
  wf := scatter_S4096x4096_S838860x2_S838860_n_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x2048 : Shape := ⟨2, ![4096, 2048]⟩
abbrev S4096x1 : Shape := ⟨2, ![4096, 1]⟩
abbrev S838860 : Shape := ⟨1, ![838860]⟩
abbrev S_ : Shape := ⟨0, ![]⟩
abbrev S4096x2048x1 : Shape := ⟨3, ![4096, 2048, 1]⟩
abbrev S4096x2048x2 : Shape := ⟨3, ![4096, 2048, 2]⟩
abbrev S838860x1 : Shape := ⟨2, ![838860, 1]⟩
abbrev S838860x2 : Shape := ⟨2, ![838860, 2]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .i32⟩
  | .hbm, ⟨2, _⟩ => ⟨S4096x1, .f32⟩
  | .hbm, ⟨3, _⟩ => ⟨S838860, .f32⟩
  | .hbm, ⟨4, _⟩ => ⟨S838860, .i32⟩
  | .hbm, ⟨5, _⟩ => ⟨S838860, .i32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i32⟩
  | .hbm, ⟨15, _⟩ => ⟨S_, .i32⟩
  | .hbm, ⟨16, _⟩ => ⟨S4096x2048, .i32⟩
  | .hbm, ⟨17, _⟩ => ⟨S4096x2048, .i32⟩
  | .hbm, ⟨18, _⟩ => ⟨S4096x2048x1, .i32⟩
  | .hbm, ⟨19, _⟩ => ⟨S4096x2048x1, .i32⟩
  | .hbm, ⟨20, _⟩ => ⟨S4096x2048x2, .i32⟩
  | .hbm, ⟨21, _⟩ => ⟨S4096x4096, .i32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S838860, .f32⟩
  | .hbm, ⟨27, _⟩ => ⟨S838860, .f32⟩
  | .hbm, ⟨28, _⟩ => ⟨S_, .i32⟩
  | .hbm, ⟨29, _⟩ => ⟨S838860, .i32⟩
  | .hbm, ⟨30, _⟩ => ⟨S838860, .i1⟩
  | .hbm, ⟨31, _⟩ => ⟨S_, .i32⟩
  | .hbm, ⟨32, _⟩ => ⟨S838860, .i32⟩
  | .hbm, ⟨33, _⟩ => ⟨S838860, .i32⟩
  | .hbm, ⟨34, _⟩ => ⟨S838860, .i32⟩
  | .hbm, ⟨35, _⟩ => ⟨S_, .i32⟩
  | .hbm, ⟨36, _⟩ => ⟨S838860, .i32⟩
  | .hbm, ⟨37, _⟩ => ⟨S838860, .i1⟩
  | .hbm, ⟨38, _⟩ => ⟨S_, .i32⟩
  | .hbm, ⟨39, _⟩ => ⟨S838860, .i32⟩
  | .hbm, ⟨40, _⟩ => ⟨S838860, .i32⟩
  | .hbm, ⟨41, _⟩ => ⟨S838860, .i32⟩
  | .hbm, ⟨42, _⟩ => ⟨S838860x1, .i32⟩
  | .hbm, ⟨43, _⟩ => ⟨S838860x1, .i32⟩
  | .hbm, ⟨44, _⟩ => ⟨S838860x2, .i32⟩
  | .hbm, ⟨45, _⟩ => ⟨S4096x4096, .f32⟩
  | .hbm, ⟨46, _⟩ => ⟨S4096x4096, .f32⟩
  | .hbm, ⟨47, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x1_S4096x4096_0_1 : S4096x1.BroadcastsInDim S4096x4096 (![0, 1] : Fin 2 → Fin S4096x4096.rank)
  bcast_S_S838860 : S_.BroadcastsInDim S838860 (![] : Fin 0 → Fin S838860.rank)
  bcast_S838860_S838860x1_0 : S838860.BroadcastsInDim S838860x1 (![0] : Fin 1 → Fin S838860x1.rank)
  concatenates_S838860x1_S838860x1_S838860x2_d1 : Shape.Concatenates [S838860x1, S838860x1] S838860x2 1
  transposes_S4096x4096_S4096x4096_1_0 : S4096x4096.Transposes [1, 0] S4096x4096
  scatter_S4096x4096_S838860x2_S838860_n_01_01_1_wf : ScatterDims.WF S4096x4096 S838860x2 S838860 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S838860x2_S838860_n_01_01_1 : ScatterDims S4096x4096 S838860x2 S838860 where
  updateWindowDims := []
  insertedWindowDims := [0, 1]
  scatterDimsToOperandDims := [0, 1]
  indexVectorDim := 1
  wf := scatter_S4096x4096_S838860x2_S838860_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Reg0.lean ====
/-
  The first pallas_call (the weight build) as a pipeline region, at any float instance and at any
  contents `V` of the core's buffers when the region is entered.

  At grid point `t` (eight points, one per block of 512 output rows) the body reads three blocks —
  512×2048 packed words, 512×1 scales, 512×4096 of the dense residual — and stores ONE 512×4096 block
  of weights, a pure function `k0_pay1` of the three blocks it read; it also loads the output buffer
  before storing into it, and that value is not used.  So the output window's staging buffer after the
  body is `wblk` of the three input blocks, each input buffer is left as found, and nothing else of
  the core is touched: the region's invariant is the scoped rest and the generator register.
-/
import proofs.«429945_j6210522710042_2_alg».proof.Proof.Gen.Kernel.Launch
import proofs.«429945_j6210522710042_2_alg».proof.Proof.Gen.Kernel.Skeleton
import proofs.«429945_j6210522710042_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t` of the weight build, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (every point fetches it; the
    body leaves it in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rP : Rect S512x2048 := Rect.unit (s := S512x2048) ![0, 0] S512x2048.size inb_S512x2048_S512x2048_0_0
abbrev rS : Rect S512x1 := Rect.unit (s := S512x1) ![0, 0] S512x1.size inb_S512x1_S512x1_0_0
abbrev rW : Rect S512x4096 := Rect.unit (s := S512x4096) ![0, 0] S512x4096.size inb_S512x4096_S512x4096_0_0

/-- The weight block the body leaves in the output window's buffer, from the three input blocks: its one
    store, of the payload `k0_pay1` of what the three loads read. -/
def wblk (x0 : Vec F S512x2048 .i32) (x1 : Vec F S512x1 .f32) (x2 : Vec F S512x4096 .f32) : Vec F S512x4096 .bf16 :=
  View.canon [⟨rW, k0_pay1 (View.ld x0 rP) (View.ld x1 rS) (View.ld x2 rW)⟩]

/-- The one store covers the buffer. -/
theorem wcover (p0 : Vec F S512x4096 .bf16) (y : S512x4096.Idx) :
    ∃ pc ∈ ([⟨rW, p0⟩] : List (View.Piece (Elt F) S512x4096 .bf16)), y ∈ pc.1.set :=
  View.cover_of_tiled [⟨rW, p0⟩] S512x4096.size (by rfl) y

set_option maxHeartbeats 1000000 in
/-- The body on whole staging memrefs: the inputs' at contents `x0 x1 x2`, the output's at anything; it
    runs to the continuation with the inputs' as they were and the output's at `wblk x0 x1 x2`. -/
theorem sound_kernel0 (c : Dev nD) (E : Set ℕ) (i : grid0.Coords)
    (arg1 : Memref sig .tc .vmem S512x2048 .i32) (harg1 : arg1.IsWhole) (arg2 : Memref sig .tc .vmem S512x1 .f32) (harg2 : arg2.IsWhole)
    (arg3 : Memref sig .tc .vmem S512x4096 .f32) (harg3 : arg3.IsWhole) (arg4 : Memref sig .tc .vmem S512x4096 .bf16) (harg4 : arg4.IsWhole)
    (x0 : Vec F S512x2048 .i32) (x1 : Vec F S512x1 .f32) (x2 : Vec F S512x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (wblk x0 x1 x2)) -∗ K ⟨⟩))
      ⊢ wp frame (wpE (defs₀ (F := F)) Variants.none c none) E (cc0__build_weight_kernel i arg1 harg1 arg2 harg2 arg3 harg3 arg4 harg4) K := by
  simp only [cc0__build_weight_kernel_eq_skeleton]; unfold cc0__build_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wcover _)

/-- The proof data of the weight build on core `c`: the arrays as the region finds them; after the body
    at point `t` each input's buffer at its block and the output's at the weight block of the three input
    blocks; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => wblk (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = wblk (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K.Reg1Runs.lean ====
/-
  The second pallas_call (the blocked matrix product) as a pipeline region: what its three cases share.

  The grid is 4×4×4: block row `i` of the tokens, block row `j` of the weights, reduction block `k`, the
  last running fastest, so point `t` has `k = t mod 4`.  The body resets its 1024×1024 accumulator (a
  scratch buffer it keeps between points) when `k = 0`, adds the product of the two input blocks to it
  at every point, and copies it into the output window's buffer when `k = 3`; at the other points it
  stores nothing into the output window, whose block is written back only at `k = 3`.  Three cases of
  the two conditions occur: A (`k = 0`), B (`k = 1, 2`), C (`k = 3`).
-/
import proofs.«429945_j6210522710042_2_alg».proof.Proof.Gen.Kernel.Launch
import proofs.«429945_j6210522710042_2_alg».proof.Proof.Gen.Kernel.Skeleton
import proofs.«429945_j6210522710042_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, over the grid -/

/-- "This is the first reduction step": the body's first branch condition, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last reduction step": the body's second branch condition. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the body does not store the output (cases A and B) its window is idle and its block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it does (case C) the window is live. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- An assertion about the accumulator beside the scoped buffers of the core that this region neither stages
    through nor uses (the first region's staging buffers), each of those at some contents. -/
def withAcc1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The region's plain invariant, with the accumulator as a memref owned at some contents. -/
theorem PhiA1_eq (c : Dev nD) :
    (Pipeline.ΦA spec1 c : sProp 𝕄)
      = iprop(withAcc1 (F := F) c (iprop(∃ d, owns (c : Thread nD τ) scM1_0 fullShare d)) ∗ (∃ r, prngReg c r)) := by
  unfold Pipeline.ΦA withAcc1; rw [scopedRest1_eq]; simp only [scM1_0, owns_whole]; try rfl

/-- The accumulator's assertion may be weakened beside the others. -/
theorem withAcc1_mono (c : Dev nD) {P Q : sProp 𝕄} (h : P ⊢ Q) : withAcc1 (F := F) c P ⊢ withAcc1 (F := F) c Q := by
  unfold withAcc1
  iintro ⟨H0, H1, H2, H3, H4, H5, H6, H7, HP⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h; iexact HP

section Region1

variable (V : (c : Dev nD) → (b : Ref sig .tc) → Buf (Elt F) ((c : Thread nD τ).loc b))

/-- Window `w`'s block at point `t` of the matrix product, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

end Cert.Kernel.Gen

end
-- ==== Proof.K.Reg1RunA.lean ====
/-
  The matrix-product body at a first reduction step (case A): the accumulator, found at anything, is reset to zero and the product of the two input blocks added to it; the output window's buffer is handed back untouched.
-/
import proofs.«429945_j6210522710042_2_alg».proof.Proof.K.Reg1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (`L2`) and in the accumulator (`LS0`),
    last store first, in this case, with the body's triple on whole memrefs: the symbolic run of the
    body finds the pieces. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Gen

end
-- ==== Proof.K.Reg1RunB.lean ====
/-
  The matrix-product body at a middle reduction step (case B): the product of the two input blocks is added to what the accumulator held; the output window's buffer is handed back untouched.
-/
import proofs.«429945_j6210522710042_2_alg».proof.Proof.K.Reg1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (`L2`) and in the accumulator (`LS0`),
    last store first, in this case, with the body's triple on whole memrefs: the symbolic run of the
    body finds the pieces. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Gen

end
-- ==== Proof.K.Reg1RunC.lean ====
/-
  The matrix-product body at a last reduction step (case C): the product of the two input blocks is added to what the accumulator held, and the accumulator is copied into the output window's buffer.
-/
import proofs.«429945_j6210522710042_2_alg».proof.Proof.K.Reg1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (`L2`) and in the accumulator (`LS0`),
    last store first, in this case, with the body's triple on whole memrefs: the symbolic run of the
    body finds the pieces. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Gen

end
-- ==== Proof.K.Reg1.lean ====
/-
  The second pallas_call (the blocked matrix product) as a pipeline region, at any float instance and at any
  contents `V` of the core's buffers when the region is entered: what the accumulator and the output
  window's buffer hold after each grid point, the region's invariant (the accumulator at what the point
  before left in it), and the body obligation.
-/
import proofs.«429945_j6210522710042_2_alg».proof.Proof.K.Reg1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output window's buffer -/

/-- Case A stores nothing into the output window: a placeholder nothing consults. -/
def out1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VO1_2.read (Elt F) (VO1_2.writes (Elt F) VO1_2.junk (kernelRun1_A c i arg3 harg3 arg4 harg4 arg5 harg5 arg6 harg6 hc0 hc1 x0 x1).1)

/-- Case A's stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- Case B stores nothing into the output window: a placeholder nothing consults. -/
def out1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) : Vec F S1024x1024 .f32 :=
  VO1_2.read (Elt F) (VO1_2.writes (Elt F) VO1_2.junk (kernelRun1_B c i arg3 harg3 arg4 harg4 arg5 harg5 arg6 harg6 hc0 hc1 x0 x1 xs0).1)

theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What case B leaves in the accumulator, over what it held (`xs0`). -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- Case C's one store into the output window covers its block. -/
theorem cover1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y

/-- What case C leaves in the output window's buffer. -/
def out1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)

theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y

/-- What case C leaves in the accumulator, over what it held (`xs0`). -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

section Region1

variable (V : (c : Dev nD) → (b : Ref sig .tc) → Buf (Elt F) ((c : Thread nD τ).loc b))

/-! ## After each point -/

/-- What the output window's buffer and the accumulator hold after the body at position `n` (a pair): the case
    the position's reduction step selects, run on the point's two input blocks, the accumulator taken (cases B
    and C) at what position `n - 1` left in it. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the plain invariant (the accumulator at anything); afterwards the
    accumulator at what position `n - 1` left in it, beside the other scoped buffers and the generator register. -/
def PhiS1 (c : Dev nD) : (n : ℕ) → n ≤ cfg1.N → sProp 𝕄
  | 0, _ => Pipeline.ΦA spec1 c
  | n + 1, hn => iprop(withAcc1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(withAcc1 (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(withAcc1 (F := F) c (owns (c : Thread nD τ) scM1_0 fullShare ((outsAt1 V c (n - 1) (by omega)).2)) ∗ (∃ r, prngReg c r)) := by
  cases n with
  | zero => exact absurd rfl hz
  | succ n => rfl

/-! ## The proof data -/

/-- The proof data of the matrix product on core `c`: the arrays as the region finds them; after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The accumulator's named contents may be forgotten. -/
theorem withAcc1_forget (c : Dev nD) (x : Vec F S1024x1024 .f32) :
    withAcc1 (F := F) c (owns (c : Thread nD τ) scM1_0 fullShare x)
      ⊢ withAcc1 (F := F) c (iprop(∃ d, owns (c : Thread nD τ) scM1_0 fullShare d)) :=
  withAcc1_mono c (by iintro H; iexists _; iexact H)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Handing the accumulator back at a point's contents, from the pieces the run wrote. -/
theorem acc_back (c : Dev nD) (L : List (View.Piece (Elt F) S1024x1024 .f32))
    (hcov : ∀ y : S1024x1024.Idx, ∃ pc ∈ L, y ∈ pc.1.set) :
    (iprop(∃ f, scM1_0.view.loc (c : Thread nD τ) ↦[scM1_0.view.set]{fullShare} scM1_0.view.writes (Elt F) f L) : sProp 𝕄)
      ⊢ owns (c : Thread nD τ) scM1_0 fullShare (VS1_0.read (Elt F) (VS1_0.writes (Elt F) VS1_0.junk L)) := by
  iintro ⟨%es0, HS0⟩
  unfold owns; iexists _; isplitr
  swap; · iexact HS0
  ipureintro; exact View.read_writes_of_cover _ _ _ _ _ hcov

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    have hΦ : (dat1 V c).Φ t.castSucc ⊢ iprop(withAcc1 (F := F) c (iprop(∃ d, owns (c : Thread nD τ) scM1_0 fullShare d)) ∗ (∃ r, prngReg c r)) := by
      by_cases hz : t.val = 0
      · rw [PhiS1_castSucc V c t, PhiS1_zero V c _ _ hz, PhiA1_eq]
      · rw [PhiS1_castSucc V c t, PhiS1_pos V c _ _ hz]
        exact sep_mono (withAcc1_forget c _) .rfl
    iintro ⟨HΦ, Ho, ⟨%d0, H0⟩, ⟨%d1, H1⟩, ⟨%d2, H2⟩⟩
    ihave HΦ' := hΦ $$ HΦ
    unfold withAcc1
    icases HΦ' with ⟨⟨R0, R1, R2, R3, R4, R5, R6, R7, HS0⟩, Hg⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, HS0⟩
    isplitl [R0 R1 R2 R3 R4 R5 R6 R7 HS0 Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iapply (acc_back c _ (scover1_A_0 c _ _ _ _ _ _ _ _ _ _ _ _ _))
        iexact HS0
      iexact Hg
    isplitl [Ho]; · iexact Ho
    isplitl [H0]; · iexact H0
    isplitl [H1]; · iexact H1
    iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      unfold withAcc1
      iintro ⟨⟨⟨R0, R1, R2, R3, R4, R5, R6, R7, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [R0 R1 R2 R3 R4 R5 R6 R7 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iapply (acc_back c _ (scover1_C_0 c _ _ _ _ _ _ _ _ _ _ _ _ _ _))
          iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      unfold withAcc1
      iintro ⟨⟨⟨R0, R1, R2, R3, R4, R5, R6, R7, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, HS0⟩
      isplitl [R0 R1 R2 R3 R4 R5 R6 R7 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iapply (acc_back c _ (scover1_B_0 c _ _ _ _ _ _ _ _ _ _ _ _ _ _))
          iexact HS0
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The plain invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  exact sep_mono (withAcc1_forget c _) .rfl

end Region1

end Cert.Kernel.Gen

end
-- ==== Proof.K.Run.lean ====
/-
  The whole program as a run: @main is a stretch of host operations (among them the scatter that builds the
  dense residual), the weight build, one more host operation (the cast of `x`), the matrix product.  The
  contents of the core's unscoped buffers at the five boundaries are a fold from the launch memory: a host
  stretch applies its operations; a region leaves its arrays at what its write-backs leave and every other
  buffer as it was.  From the two regions' body obligations the launch theorem for a list of segments gives:
  every weakly fair execution ends, nothing faulting, with every unscoped buffer at the last boundary's
  contents.  Read at an argument's buffer that is its launch contents (no stretch writes it, no region changes
  it); read at the result's buffer it is what the matrix product's write-backs leave.
-/
import proofs.«429945_j6210522710042_2_alg».proof.Proof.K.Reg0
import proofs.«429945_j6210522710042_2_alg».proof.Proof.K.Reg1
import proofs.«429945_j6210522710042_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch (the weight build's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the weight build's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the matrix product's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the matrix product's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := (B2_arr m ρ c 0).trans (((dat0 (E1 m ρ) c).arrAt_in 0 rfl _).trans (A_eq0 (E1 m ρ) c 0))
    _ = B0 m ρ c (Proc.devRef .tc main_arg1) := StableHlo.after_of_writes_sub hostOps0 _ hostOps0_writes (by decide)
    _ = m ((c : Thread nD τ).loc main_arg1) := rfl

theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := (B2_arr m ρ c 1).trans (((dat0 (E1 m ρ) c).arrAt_in 1 rfl _).trans (A_eq0 (E1 m ρ) c 1))
    _ = B0 m ρ c (Proc.devRef .tc main_arg2) := StableHlo.after_of_writes_sub hostOps0 _ hostOps0_writes (by decide)
    _ = m ((c : Thread nD τ).loc main_arg2) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-- The result's buffer ends at what the matrix product's write-backs leave in its output window's array. -/
theorem B4_main_v19 (c : Dev nD) : B4 m ρ c (Proc.devRef .tc main_v19) = (dat1 (E3 m ρ) c).arrAt 2 cfg1.N :=
  B4_arr m ρ c 2

/-! ## The proof data family, the thread state, the segments -/

def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segsH : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segsH m ρ) := (main_chain c).trans (by chain_rfl)

set_option backward.isDefEq.respectTransparency.types false in
/-- THE RUN: from any memory with zero counters every weakly fair execution of @main terminates, nothing
    faulting, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME, at any float instance: the six argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c)⟩) (run_all m ρ)

/-- THE RUN WITH THE RESULT NAMED: besides the arguments, the result's buffer ends at what the matrix product's
    write-backs leave in its output window's array. -/
theorem run_named : θ_run defs (onTc (τ := τ) (main (F := F))) ⟨m, fun _ => 0, ρ⟩ (fun r => ∀ c : Dev nD,
      r.2.mem ((c.tc : Thread nD τ).loc main_v19) = (dat1 (E3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v19 (by decide))).trans (B4_main_v19 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c)⟩) (run_all m ρ)

end Cert.Kernel.Gen

end
-- ==== Proof.KI.Reg0.lean ====
/-
  The first pallas_call (the weight build) as a pipeline region, at any float instance and at any
  contents `V` of the core's buffers when the region is entered.

  At grid point `t` (eight points, one per block of 512 output rows) the body reads three blocks —
  512×2048 packed words, 512×1 scales, 512×4096 of the dense residual — and stores ONE 512×4096 block
  of weights, a pure function `k0_pay1` of the three blocks it read; it also loads the output buffer
  before storing into it, and that value is not used.  So the output window's staging buffer after the
  body is `wblk` of the three input blocks, each input buffer is left as found, and nothing else of
  the core is touched: the region's invariant is the scoped rest and the generator register.
-/
import proofs.«429945_j6210522710042_2_alg».proof.Proof.Gen.KernelIdeal.Launch
import proofs.«429945_j6210522710042_2_alg».proof.Proof.Gen.KernelIdeal.Skeleton
import proofs.«429945_j6210522710042_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t` of the weight build, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (every point fetches it; the
    body leaves it in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rP : Rect S512x2048 := Rect.unit (s := S512x2048) ![0, 0] S512x2048.size inb_S512x2048_S512x2048_0_0
abbrev rS : Rect S512x1 := Rect.unit (s := S512x1) ![0, 0] S512x1.size inb_S512x1_S512x1_0_0
abbrev rW : Rect S512x4096 := Rect.unit (s := S512x4096) ![0, 0] S512x4096.size inb_S512x4096_S512x4096_0_0

/-- The weight block the body leaves in the output window's buffer, from the three input blocks: its one
    store, of the payload `k0_pay1` of what the three loads read. -/
def wblk (x0 : Vec F S512x2048 .i32) (x1 : Vec F S512x1 .f32) (x2 : Vec F S512x4096 .f32) : Vec F S512x4096 .bf16 :=
  View.canon [⟨rW, k0_pay1 (View.ld x0 rP) (View.ld x1 rS) (View.ld x2 rW)⟩]

/-- The one store covers the buffer. -/
theorem wcover (p0 : Vec F S512x4096 .bf16) (y : S512x4096.Idx) :
    ∃ pc ∈ ([⟨rW, p0⟩] : List (View.Piece (Elt F) S512x4096 .bf16)), y ∈ pc.1.set :=
  View.cover_of_tiled [⟨rW, p0⟩] S512x4096.size (by rfl) y

set_option maxHeartbeats 1000000 in
/-- The body on whole staging memrefs: the inputs' at contents `x0 x1 x2`, the output's at anything; it
    runs to the continuation with the inputs' as they were and the output's at `wblk x0 x1 x2`. -/
theorem sound_kernel0 (c : Dev nD) (E : Set ℕ) (i : grid0.Coords)
    (arg1 : Memref sig .tc .vmem S512x2048 .i32) (harg1 : arg1.IsWhole) (arg2 : Memref sig .tc .vmem S512x1 .f32) (harg2 : arg2.IsWhole)
    (arg3 : Memref sig .tc .vmem S512x4096 .f32) (harg3 : arg3.IsWhole) (arg4 : Memref sig .tc .vmem S512x4096 .bf16) (harg4 : arg4.IsWhole)
    (x0 : Vec F S512x2048 .i32) (x1 : Vec F S512x1 .f32) (x2 : Vec F S512x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (wblk x0 x1 x2)) -∗ K ⟨⟩))
      ⊢ wp frame (wpE (defs₀ (F := F)) Variants.none c none) E (cc0__build_weight_kernel i arg1 harg1 arg2 harg2 arg3 harg3 arg4 harg4) K := by
  simp only [cc0__build_weight_kernel_eq_skeleton]; unfold cc0__build_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wcover _)

/-- The proof data of the weight build on core `c`: the arrays as the region finds them; after the body
    at point `t` each input's buffer at its block and the output's at the weight block of the three input
    blocks; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => wblk (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = wblk (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.Reg1Runs.lean ====
/-
  The second pallas_call (the blocked matrix product) as a pipeline region: what its three cases share.

  The grid is 4×4×4: block row `i` of the tokens, block row `j` of the weights, reduction block `k`, the
  last running fastest, so point `t` has `k = t mod 4`.  The body resets its 1024×1024 accumulator (a
  scratch buffer it keeps between points) when `k = 0`, adds the product of the two input blocks to it
  at every point, and copies it into the output window's buffer when `k = 3`; at the other points it
  stores nothing into the output window, whose block is written back only at `k = 3`.  Three cases of
  the two conditions occur: A (`k = 0`), B (`k = 1, 2`), C (`k = 3`).
-/
import proofs.«429945_j6210522710042_2_alg».proof.Proof.Gen.KernelIdeal.Launch
import proofs.«429945_j6210522710042_2_alg».proof.Proof.Gen.KernelIdeal.Skeleton
import proofs.«429945_j6210522710042_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, over the grid -/

/-- "This is the first reduction step": the body's first branch condition, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last reduction step": the body's second branch condition. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the body does not store the output (cases A and B) its window is idle and its block is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it does (case C) the window is live. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- An assertion about the accumulator beside the scoped buffers of the core that this region neither stages
    through nor uses (the first region's staging buffers), each of those at some contents. -/
def withAcc1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The region's plain invariant, with the accumulator as a memref owned at some contents. -/
theorem PhiA1_eq (c : Dev nD) :
    (Pipeline.ΦA spec1 c : sProp 𝕄)
      = iprop(withAcc1 (F := F) c (iprop(∃ d, owns (c : Thread nD τ) scM1_0 fullShare d)) ∗ (∃ r, prngReg c r)) := by
  unfold Pipeline.ΦA withAcc1; rw [scopedRest1_eq]; simp only [scM1_0, owns_whole]; try rfl

/-- The accumulator's assertion may be weakened beside the others. -/
theorem withAcc1_mono (c : Dev nD) {P Q : sProp 𝕄} (h : P ⊢ Q) : withAcc1 (F := F) c P ⊢ withAcc1 (F := F) c Q := by
  unfold withAcc1
  iintro ⟨H0, H1, H2, H3, H4, H5, H6, H7, HP⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h; iexact HP

section Region1

variable (V : (c : Dev nD) → (b : Ref sig .tc) → Buf (Elt F) ((c : Thread nD τ).loc b))

/-- Window `w`'s block at point `t` of the matrix product, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

end Cert.KernelIdeal.Gen

end
-- ==== Proof.KI.Reg1RunA.lean ====
/-
  The matrix-product body at a first reduction step (case A): the accumulator, found at anything, is reset to zero and the product of the two input blocks added to it; the output window's buffer is handed back untouched.
-/
import proofs.«429945_j6210522710042_2_alg».proof.Proof.KI.Reg1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (`L2`) and in the accumulator (`LS0`),
    last store first, in this case, with the body's triple on whole memrefs: the symbolic run of the
    body finds the pieces. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Gen

end
-- ==== Proof.KI.Reg1RunB.lean ====
/-
  The matrix-product body at a middle reduction step (case B): the product of the two input blocks is added to what the accumulator held; the output window's buffer is handed back untouched.
-/
import proofs.«429945_j6210522710042_2_alg».proof.Proof.KI.Reg1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (`L2`) and in the accumulator (`LS0`),
    last store first, in this case, with the body's triple on whole memrefs: the symbolic run of the
    body finds the pieces. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Gen

end
-- ==== Proof.KI.Reg1RunC.lean ====
/-
  The matrix-product body at a last reduction step (case C): the product of the two input blocks is added to what the accumulator held, and the accumulator is copied into the output window's buffer.
-/
import proofs.«429945_j6210522710042_2_alg».proof.Proof.KI.Reg1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer (`L2`) and in the accumulator (`LS0`),
    last store first, in this case, with the body's triple on whole memrefs: the symbolic run of the
    body finds the pieces. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Gen

end
-- ==== Proof.KI.Reg1.lean ====
/-
  The second pallas_call (the blocked matrix product) as a pipeline region, at any float instance and at any
  contents `V` of the core's buffers when the region is entered: what the accumulator and the output
  window's buffer hold after each grid point, the region's invariant (the accumulator at what the point
  before left in it), and the body obligation.
-/
import proofs.«429945_j6210522710042_2_alg».proof.Proof.KI.Reg1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output window's buffer -/

/-- Case A stores nothing into the output window: a placeholder nothing consults. -/
def out1_A_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VO1_2.read (Elt F) (VO1_2.writes (Elt F) VO1_2.junk (kernelRun1_A c i arg3 harg3 arg4 harg4 arg5 harg5 arg6 harg6 hc0 hc1 x0 x1).1)

/-- Case A's stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) (y : S1024x1024.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x1024.size (by sl_kernel_rfl) y

/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VS1_0.read (Elt F) (VS1_0.writes (Elt F) VS1_0.junk (kernelRun1_A c i arg3 harg3 arg4 harg4 arg5 harg5 arg6 harg6 hc0 hc1 x0 x1).2.1)

/-- Case B stores nothing into the output window: a placeholder nothing consults. -/
def out1_B_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) : Vec F S1024x1024 .f32 :=
  VO1_2.read (Elt F) (VO1_2.writes (Elt F) VO1_2.junk (kernelRun1_B c i arg3 harg3 arg4 harg4 arg5 harg5 arg6 harg6 hc0 hc1 x0 x1 xs0).1)

theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What case B leaves in the accumulator, over what it held (`xs0`). -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 hc0 hc1 x0 x1 xs0).2.1)

/-- Case C's one store into the output window covers its block. -/
theorem cover1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x1024.size (by sl_kernel_rfl) y

/-- What case C leaves in the output window's buffer. -/
def out1_C_2 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VO1_2.read (Elt F) (VO1_2.writes (Elt F) VO1_2.junk (kernelRun1_C c i arg3 harg3 arg4 harg4 arg5 harg5 arg6 harg6 hc0 hc1 x0 x1 xs0).1)

theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) (y : S1024x1024.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x1024.size (by sl_kernel_rfl) y

/-- What case C leaves in the accumulator, over what it held (`xs0`). -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 x1 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 hc0 hc1 x0 x1 xs0).2.1)

section Region1

variable (V : (c : Dev nD) → (b : Ref sig .tc) → Buf (Elt F) ((c : Thread nD τ).loc b))

/-! ## After each point -/

/-- What the output window's buffer and the accumulator hold after the body at position `n` (a pair): the case
    the position's reduction step selects, run on the point's two input blocks, the accumulator taken (cases B
    and C) at what position `n - 1` left in it. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the plain invariant (the accumulator at anything); afterwards the
    accumulator at what position `n - 1` left in it, beside the other scoped buffers and the generator register. -/
def PhiS1 (c : Dev nD) : (n : ℕ) → n ≤ cfg1.N → sProp 𝕄
  | 0, _ => Pipeline.ΦA spec1 c
  | n + 1, hn => iprop(withAcc1 (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(withAcc1 (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(withAcc1 (F := F) c (owns (c : Thread nD τ) scM1_0 fullShare ((outsAt1 V c (n - 1) (by omega)).2)) ∗ (∃ r, prngReg c r)) := by
  cases n with
  | zero => exact absurd rfl hz
  | succ n => rfl

/-! ## The proof data -/

/-- The proof data of the matrix product on core `c`: the arrays as the region finds them; after the body at
    point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The accumulator's named contents may be forgotten. -/
theorem withAcc1_forget (c : Dev nD) (x : Vec F S1024x1024 .f32) :
    withAcc1 (F := F) c (owns (c : Thread nD τ) scM1_0 fullShare x)
      ⊢ withAcc1 (F := F) c (iprop(∃ d, owns (c : Thread nD τ) scM1_0 fullShare d)) :=
  withAcc1_mono c (by iintro H; iexists _; iexact H)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Handing the accumulator back at a point's contents, from the pieces the run wrote. -/
theorem acc_back (c : Dev nD) (L : List (View.Piece (Elt F) S1024x1024 .f32))
    (hcov : ∀ y : S1024x1024.Idx, ∃ pc ∈ L, y ∈ pc.1.set) :
    (iprop(∃ f, scM1_0.view.loc (c : Thread nD τ) ↦[scM1_0.view.set]{fullShare} scM1_0.view.writes (Elt F) f L) : sProp 𝕄)
      ⊢ owns (c : Thread nD τ) scM1_0 fullShare (VS1_0.read (Elt F) (VS1_0.writes (Elt F) VS1_0.junk L)) := by
  iintro ⟨%es0, HS0⟩
  unfold owns; iexists _; isplitr
  swap; · iexact HS0
  ipureintro; exact View.read_writes_of_cover _ _ _ _ _ hcov

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    have hΦ : (dat1 V c).Φ t.castSucc ⊢ iprop(withAcc1 (F := F) c (iprop(∃ d, owns (c : Thread nD τ) scM1_0 fullShare d)) ∗ (∃ r, prngReg c r)) := by
      by_cases hz : t.val = 0
      · rw [PhiS1_castSucc V c t, PhiS1_zero V c _ _ hz, PhiA1_eq]
      · rw [PhiS1_castSucc V c t, PhiS1_pos V c _ _ hz]
        exact sep_mono (withAcc1_forget c _) .rfl
    iintro ⟨HΦ, Ho, ⟨%d0, H0⟩, ⟨%d1, H1⟩, ⟨%d2, H2⟩⟩
    ihave HΦ' := hΦ $$ HΦ
    unfold withAcc1
    icases HΦ' with ⟨⟨R0, R1, R2, R3, R4, R5, R6, R7, HS0⟩, Hg⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, HS0⟩
    isplitl [R0 R1 R2 R3 R4 R5 R6 R7 HS0 Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iapply (acc_back c _ (scover1_A_0 c _ _ _ _ _ _ _ _ _ _ _ _ _))
        iexact HS0
      iexact Hg
    isplitl [Ho]; · iexact Ho
    isplitl [H0]; · iexact H0
    isplitl [H1]; · iexact H1
    iexists _; iexact H2
  · have hz : t.val ≠ 0 := fun e => h0 (by rw [e])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      unfold withAcc1
      iintro ⟨⟨⟨R0, R1, R2, R3, R4, R5, R6, R7, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [R0 R1 R2 R3 R4 R5 R6 R7 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iapply (acc_back c _ (scover1_C_0 c _ _ _ _ _ _ _ _ _ _ _ _ _ _))
          iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      unfold withAcc1
      iintro ⟨⟨⟨R0, R1, R2, R3, R4, R5, R6, R7, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, HS0⟩
      isplitl [R0 R1 R2 R3 R4 R5 R6 R7 HS0 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iapply (acc_back c _ (scover1_B_0 c _ _ _ _ _ _ _ _ _ _ _ _ _ _))
          iexact HS0
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The plain invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  exact sep_mono (withAcc1_forget c _) .rfl

end Region1

end Cert.KernelIdeal.Gen

end
-- ==== Proof.KI.Run.lean ====
/-
  The whole program as a run: @main is a stretch of host operations (among them the scatter that builds the
  dense residual), the weight build, one more host operation (the cast of `x`), the matrix product.  The
  contents of the core's unscoped buffers at the five boundaries are a fold from the launch memory: a host
  stretch applies its operations; a region leaves its arrays at what its write-backs leave and every other
  buffer as it was.  From the two regions' body obligations the launch theorem for a list of segments gives:
  every weakly fair execution ends, nothing faulting, with every unscoped buffer at the last boundary's
  contents.  Read at an argument's buffer that is its launch contents (no stretch writes it, no region changes
  it); read at the result's buffer it is what the matrix product's write-backs leave.
-/
import proofs.«429945_j6210522710042_2_alg».proof.Proof.KI.Reg0
import proofs.«429945_j6210522710042_2_alg».proof.Proof.KI.Reg1
import proofs.«429945_j6210522710042_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the first host stretch (the weight build's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the weight build's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the matrix product's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the matrix product's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := (B2_arr m ρ c 0).trans (((dat0 (E1 m ρ) c).arrAt_in 0 rfl _).trans (A_eq0 (E1 m ρ) c 0))
    _ = B0 m ρ c (Proc.devRef .tc main_arg1) := StableHlo.after_of_writes_sub hostOps0 _ hostOps0_writes (by decide)
    _ = m ((c : Thread nD τ).loc main_arg1) := rfl

theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := (B2_arr m ρ c 1).trans (((dat0 (E1 m ρ) c).arrAt_in 1 rfl _).trans (A_eq0 (E1 m ρ) c 1))
    _ = B0 m ρ c (Proc.devRef .tc main_arg2) := StableHlo.after_of_writes_sub hostOps0 _ hostOps0_writes (by decide)
    _ = m ((c : Thread nD τ).loc main_arg2) := rfl

theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-- The result's buffer ends at what the matrix product's write-backs leave in its output window's array. -/
theorem B4_main_v19 (c : Dev nD) : B4 m ρ c (Proc.devRef .tc main_v19) = (dat1 (E3 m ρ) c).arrAt 2 cfg1.N :=
  B4_arr m ρ c 2

/-! ## The proof data family, the thread state, the segments -/

def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segsH : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segsH m ρ) := (main_chain c).trans (by chain_rfl)

set_option backward.isDefEq.respectTransparency.types false in
/-- THE RUN: from any memory with zero counters every weakly fair execution of @main terminates, nothing
    faulting, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME, at any float instance: the six argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c)⟩) (run_all m ρ)

/-- THE RUN WITH THE RESULT NAMED: besides the arguments, the result's buffer ends at what the matrix product's
    write-backs leave in its output window's array. -/
theorem run_named : θ_run defs (onTc (τ := τ) (main (F := F))) ⟨m, fun _ => 0, ρ⟩ (fun r => ∀ c : Dev nD,
      r.2.mem ((c.tc : Thread nD τ).loc main_v19) = (dat1 (E3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v19 (by decide))).trans (B4_main_v19 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c)⟩) (run_all m ρ)

end Cert.KernelIdeal.Gen

end
-- ==== Proof.Spec.lean ====
/-
  What the two programs compute, as ONE function of the argument arrays over the extended reals.

  The weight matrix has 4096 rows (output features) and 4096 columns (input features).  Row `o` is stored
  as 2048 packed words: word `h` of the row holds column `2h` in its low four bits and column `2h+1` in
  the bits above them (read with the sign: an arithmetic shift), each an integer offset by 8.  The
  dequantized weight is that integer times the row's scale, plus the sparse residual `Σ` accumulated at
  that entry.  The result at (token `t`, output `o`) is the inner product over the 4096 columns of the
  token's row of `x` with row `o` of the weights.
-/
import Idealize.ShloMosaic.PureOps.Ideal
import Idealize.ShloMosaic.Lib.ValueIdx

noncomputable section

namespace Cert.Spec

open Idealize.ShloMosaic Idealize.ShloMosaic.ValueIdx

abbrev S4096x4096 : Shape := ⟨2, ![4096, 4096]⟩
abbrev S4096x2048 : Shape := ⟨2, ![4096, 2048]⟩
abbrev S4096x1 : Shape := ⟨2, ![4096, 1]⟩
abbrev S838860 : Shape := ⟨1, ![838860]⟩
abbrev S838860x2 : Shape := ⟨2, ![838860, 2]⟩

/-- The real number eight, as the float literal both programs subtract denotes it. -/
abbrev eight : EReal := Ideal.ofBits .f32 0x41000000#32

/-- The signed four-bit weight at row `o`, column `i`, before scaling: column `i` lives in word `i / 2` of
    the row, an even column in the low four bits, an odd column in the bits above (shifted down with the
    sign); the stored integer is offset by eight. -/
def deq (packed : S4096x2048.Idx → BitVec 32) (o i : Fin 4096) : EReal :=
  if i.val % 2 = 0 then
    (((packed (ix2 o ⟨i.val / 2, by have := i.isLt; omega⟩) &&& 15#32).toInt : ℝ) : EReal) - eight
  else
    ((((packed (ix2 o ⟨i.val / 2, by have := i.isLt; omega⟩)).sshiftRight 4).toInt : ℝ) : EReal) - eight

/-- The weight at row `o`, column `i`: the dequantized integer times the row's scale, plus the residual
    accumulated there. -/
def weight (packed : S4096x2048.Idx → BitVec 32) (scales : S4096x1.Idx → EReal) (res : S4096x4096.Idx → EReal)
    (o i : Fin 4096) : EReal :=
  deq packed o i * scales (ix2 o 0) + res (ix2 o i)

/-- The result: token `t`'s row of `x` against row `o` of the weights, summed over the 4096 columns. -/
def G (x : S4096x4096.Idx → EReal) (packed : S4096x2048.Idx → BitVec 32) (scales : S4096x1.Idx → EReal)
    (res : S4096x4096.Idx → EReal) : S4096x4096.Idx → EReal :=
  fun j => ∑ k : Fin 4096, x (ix2 (j 0) k) * weight packed scales res (j 1) k

/-- The sparse residual as the host's accumulating scatter leaves it on a zero array, without the zero: at each
    entry the sum of the updates whose index pair lands there (an update landing outside the array adds
    nothing). -/
def resid (d : ScatterDims S4096x4096 S838860x2 S838860) (idx : S838860x2.Idx → BitVec 32) (upd : S838860.Idx → EReal) :
    S4096x4096.Idx → EReal :=
  fun i => ∑ j ∈ Finset.univ.filter (fun j => d.resultIdx? j idx = some i), upd j

end Cert.Spec

end
-- ==== Proof.KI.WeightPay.lean ====
/-
  The weight build's one stored value, read at an index, over the extended reals.
-/
import proofs.«429945_j6210522710042_2_alg».proof.Proof.Gen.KernelIdeal.Skeleton
import proofs.«429945_j6210522710042_2_alg».proof.Proof.Spec
import Idealize.ShloMosaic.Lib.ValueIdx
import Idealize.ShloMosaic.Lib.Pipeline.Value
import Idealize.ShloMosaic.Lib.ValueLayout

noncomputable section

namespace Cert.KernelIdeal.WeightPay

open Idealize.ShloMosaic Idealize.ShloMosaic.ValueIdx Cert.KernelIdeal Cert.KernelIdeal.Gen

section Layout
variable {α : Type}

/-- The scale column spread over the 4096 columns: entry (a, b) of the spread is the column's entry (a, 0). -/
theorem column_apply (x : S512x1.Idx → α) (h : S512x1.Broadcasts S512x4096) (a : Fin 512) (b : Fin 4096) :
    broadcastTo S512x4096 x h (ix2 a b) = x (ix2 a 0) :=
  broadcastTo_apply x h (ix2 a b) (ix2 a 0) (fun c => match c with
    | ⟨0, _⟩ => by show a.val = if (512 : ℕ) = 1 then 0 else a.val; rw [if_neg (by decide)]
    | ⟨1, _⟩ => by show (0 : ℕ) = if (1 : ℕ) = 1 then 0 else b.val; rw [if_pos rfl])

/-- A 512×2048 vector given a trailing axis of length one: entry (a, w, 0) is entry (a, w), the two having the same
    position when the entries are counted row by row. -/
theorem addLast_apply (x : S512x2048.Idx → α) (h : S512x2048.ShapeCasts S512x2048x1) (a : Fin 512) (w : Fin 2048)
    (z : Fin 1) : shapeCast S512x2048x1 x h (ix3 a w z) = x (ix2 a w) :=
  shapeCast_apply x h (ix3 a w z) (ix2 a w) (by
    rw [Shape.rowMajor_val_two, Shape.rowMajor_val_three]
    have hz := z.isLt
    show a.val * 2048 + w.val = (a.val * 2048 + w.val) * 1 + z.val
    omega)

/-- Two 512×2048×1 vectors joined along the last axis: at last coordinate 0 the joined vector reads the first. -/
theorem join_apply_fst (x₁ x₂ : S512x2048x1.Idx → α)
    (h : Shape.Concatenates [S512x2048x1, S512x2048x1] S512x2048x2 2) (a : Fin 512) (w : Fin 2048) :
    concatenate S512x2048x2 2 [⟨S512x2048x1, x₁⟩, ⟨S512x2048x1, x₂⟩] h (ix3 a w (0 : Fin 2)) = x₁ (ix3 a w 0) :=
  concatenate_pair_apply_left 2 x₁ x₂ h (ix3 a w 0) rfl (ix3 a w 0) (fun c => match c with
    | ⟨0, _⟩ => rfl | ⟨1, _⟩ => rfl | ⟨2, _⟩ => rfl)

/-- … and at last coordinate 1 it reads the second (one past the first one's single entry). -/
theorem join_apply_snd (x₁ x₂ : S512x2048x1.Idx → α)
    (h : Shape.Concatenates [S512x2048x1, S512x2048x1] S512x2048x2 2) (a : Fin 512) (w : Fin 2048) :
    concatenate S512x2048x2 2 [⟨S512x2048x1, x₁⟩, ⟨S512x2048x1, x₂⟩] h (ix3 a w (1 : Fin 2)) = x₂ (ix3 a w 0) :=
  concatenate_pair_apply_right 2 x₁ x₂ h (ix3 a w 1) rfl rfl (ix3 a w 0) (fun c => match c with
    | ⟨0, _⟩ => fun _ => rfl | ⟨1, _⟩ => fun _ => rfl | ⟨2, _⟩ => fun hc => absurd (Fin.ext rfl) hc) rfl

/-- The interleaving of two 512×2048 vectors into one 512×4096 vector: each is given a trailing axis of length one,
    the two are joined along it, and the 512×2048×2 result is read as 512×4096. Counting entries row by row,
    entry (a, b) of the result is entry (a, b / 2, b % 2) of the joined vector (2·(b / 2) + b % 2 = b), so an even
    column reads the first vector and an odd column the second, both at word b / 2. -/
theorem weave_apply (lo hi : S512x2048.Idx → α) (h1 : S512x2048.ShapeCasts S512x2048x1)
    (hc : Shape.Concatenates [S512x2048x1, S512x2048x1] S512x2048x2 2) (h2 : S512x2048x2.ShapeCasts S512x4096)
    (a : Fin 512) (b : Fin 4096) :
    shapeCast S512x4096 (concatenate S512x2048x2 2
        [⟨S512x2048x1, shapeCast S512x2048x1 lo h1⟩, ⟨S512x2048x1, shapeCast S512x2048x1 hi h1⟩] hc) h2 (ix2 a b)
      = if b.val % 2 = 0 then lo (ix2 a ⟨b.val / 2, by have := b.isLt; omega⟩)
        else hi (ix2 a ⟨b.val / 2, by have := b.isLt; omega⟩) := by
  have hb := b.isLt
  have hw : b.val / 2 < 2048 := by omega
  by_cases hp : b.val % 2 = 0
  · rw [if_pos hp]
    refine (shapeCast_apply _ h2 (ix2 a b) (ix3 a ⟨b.val / 2, hw⟩ (0 : Fin 2)) ?_).trans ?_
    · rw [Shape.rowMajor_val_three, Shape.rowMajor_val_two]
      show (a.val * 2048 + b.val / 2) * 2 + 0 = a.val * 4096 + b.val
      omega
    · rw [join_apply_fst, addLast_apply]
  · rw [if_neg hp]
    refine (shapeCast_apply _ h2 (ix2 a b) (ix3 a ⟨b.val / 2, hw⟩ (1 : Fin 2)) ?_).trans ?_
    · rw [Shape.rowMajor_val_three, Shape.rowMajor_val_two]
      show (a.val * 2048 + b.val / 2) * 2 + 1 = a.val * 4096 + b.val
      omega
    · rw [join_apply_snd, addLast_apply]

end Layout

/-- The vector unit's arithmetic right shift of a 32-bit word by four places: four is below the word's width, so it
    is the plain arithmetic shift, which keeps the sign. -/
theorem shrsi_four (x : BitVec 32) : IntOp.shrsi .vector x 4#32 = x.sshiftRight 4 := by
  unfold IntOp.shrsi
  rw [if_pos (by decide)]
  rfl

/-- Entry (a, b) of the 512×4096 block the weight build stores, from the blocks it read: the packed words
    `v0` (512×2048), the scales `v15` (512×1) and the residual `v18` (512×4096): column `b` comes from word
    `b / 2` of the row — its low four bits when `b` is even, the bits above (shifted down with the sign) when
    odd —, minus eight, times the row's scale, plus the residual. -/
theorem k0_pay1_apply (v0 : Vec Ideal S512x2048 .i32) (v15 : Vec Ideal S512x1 .f32) (v18 : Vec Ideal S512x4096 .f32)
    (a : Fin 512) (b : Fin 4096) :
    k0_pay1 (F := Ideal) v0 v15 v18 (ix2 a b)
      = (if b.val % 2 = 0 then
            ((((v0 (ix2 a ⟨b.val / 2, by have := b.isLt; omega⟩) : BitVec 32) &&& 15#32).toInt : ℝ) : EReal) - Cert.Spec.eight
          else
            ((((v0 (ix2 a ⟨b.val / 2, by have := b.isLt; omega⟩) : BitVec 32).sshiftRight 4).toInt : ℝ) : EReal) - Cert.Spec.eight)
          * v15 (ix2 a 0) + v18 (ix2 a b) := by
  unfold k0_pay1
  -- rounding to the narrower format, the sum and the product act entry by entry (rounding is the identity over the
  -- extended reals): the entry is (interleaved integers) × (spread scale) + (residual block), each read at (a, b)
  show shapeCast S512x4096 (concatenate S512x2048x2 2
        [⟨S512x2048x1, shapeCast S512x2048x1 _ _⟩, ⟨S512x2048x1, shapeCast S512x2048x1 _ _⟩] _) _ (ix2 a b)
      * broadcastTo S512x4096 v15 _ (ix2 a b) + shapeCast S512x4096 v18 _ (ix2 a b) = _
  rw [weave_apply, column_apply, shapeCast_self]
  by_cases hp : b.val % 2 = 0
  · -- an even column: the word's low four bits, read as an integer, minus eight
    rw [if_pos hp, if_pos hp]
    rfl
  · -- an odd column: the word shifted down four places with its sign, read as an integer, minus eight
    rw [if_neg hp, if_neg hp]
    show ((((IntOp.shrsi .vector (v0 _) 4#32).toInt : ℝ) : EReal) - Cert.Spec.eight) * _ + _ = _
    rw [shrsi_four]

end Cert.KernelIdeal.WeightPay

end
-- ==== Proof.KI.Weights.lean ====
/-
  What the weight build leaves in its output array, over the extended reals: one function of the three arrays
  it reads, entry by entry.
-/
import proofs.«429945_j6210522710042_2_alg».proof.Proof.KI.Reg0
import proofs.«429945_j6210522710042_2_alg».proof.Proof.KI.WeightPay
import proofs.«429945_j6210522710042_2_alg».proof.Proof.Spec
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The weight array as ONE function of the packed words, the scales and the dense residual the region finds:
    entry (o, i) is the specification's weight. -/
def Wk (c : Dev nD) : Buf (Elt Ideal) ((c : Thread nD τ).loc main_v17) :=
  fun j => Cert.Spec.weight (V c main_arg1) (V c main_arg2) (V c main_v16) (j 0) (j 1)

/-! ## The body's one store, and where each window's block sits in its array -/

/-- The zero offsets of a whole-buffer rectangle, as the constant zero function. -/
theorem hzero : (![0, 0] : Fin 2 → ℕ) = fun _ => 0 :=
  funext fun a => match a with | ⟨0, _⟩ => rfl | ⟨1, _⟩ => rfl

/-- The one store fills the whole output buffer and the three loads read whole buffers, so what the body leaves
    is the stored value itself: the payload of the three input blocks. -/
theorem wblk_eq (x0 : Vec Ideal S512x2048 .i32) (x1 : Vec Ideal S512x1 .f32) (x2 : Vec Ideal S512x4096 .f32) :
    wblk x0 x1 x2 = k0_pay1 x0 x1 x2 := by
  unfold wblk
  rw [View.canon_unit_zero hzero]
  simp only [View.ld_unit_zero (S := S512x2048) hzero, View.ld_unit_zero (S := S512x1) hzero,
    View.ld_unit_zero (S := S512x4096) hzero]

/-- The four index maps over the eight points: every window's block at point `t` is block (t, 0) of its array. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The packed words' block at point `t` is rows 512 t … 512 t + 511 of the packed array, all 2048 columns. -/
theorem words_apply (c : Dev nD) (t : Fin cfg0.N) (x : S512x2048.Idx) (k : S4096x2048.Idx)
    (hk0 : (k 0).val = t.val * 512 + (x 0).val) (hk1 : (k 1).val = (x 1).val) :
    (iblk0 V c 0 t : Vec Ideal S512x2048 .i32) x = (V c main_arg1 : S4096x2048.Idx → BitVec 32) k := by
  obtain ⟨e0, e1, -⟩ := idx_facts0 t
  unfold iblk0
  rw [View.read_apply]
  show V c main_arg1 _ = V c main_arg1 _
  congr 1
  funext a
  apply Fin.ext
  match a with
  | ⟨0, _⟩ => show win0_0.index t (0 : Fin 2) * 512 + 1 * (x 0).val = (k 0).val; omega
  | ⟨1, _⟩ => show win0_0.index t (1 : Fin 2) * 2048 + 1 * (x 1).val = (k 1).val; omega

/-- The scales' block at point `t` is rows 512 t … 512 t + 511 of the scale column. -/
theorem scales_apply (c : Dev nD) (t : Fin cfg0.N) (x : S512x1.Idx) (k : S4096x1.Idx)
    (hk0 : (k 0).val = t.val * 512 + (x 0).val) (hk1 : (k 1).val = (x 1).val) :
    (iblk0 V c 1 t : Vec Ideal S512x1 .f32) x = (V c main_arg2 : S4096x1.Idx → EReal) k := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 512 + 1 * (x 0).val = (k 0).val; omega
  | ⟨1, _⟩ => show win0_1.index t (1 : Fin 2) * 1 + 1 * (x 1).val = (k 1).val; omega

/-- The residual's block at point `t` is rows 512 t … 512 t + 511 of the dense residual, all 4096 columns. -/
theorem resid_apply (c : Dev nD) (t : Fin cfg0.N) (x : S512x4096.Idx) (k : S4096x4096.Idx)
    (hk0 : (k 0).val = t.val * 512 + (x 0).val) (hk1 : (k 1).val = (x 1).val) :
    (iblk0 V c 2 t : Vec Ideal S512x4096 .f32) x = (V c main_v16 : S4096x4096.Idx → EReal) k := by
  obtain ⟨-, -, -, -, e0, e1, -⟩ := idx_facts0 t
  unfold iblk0
  rw [View.read_apply]
  show V c main_v16 _ = V c main_v16 _
  congr 1
  funext a
  apply Fin.ext
  match a with
  | ⟨0, _⟩ => show win0_2.index t (0 : Fin 2) * 512 + 1 * (x 0).val = (k 0).val; omega
  | ⟨1, _⟩ => show win0_2.index t (1 : Fin 2) * 4096 + 1 * (x 1).val = (k 1).val; omega

/-! ## What a point writes back, entry by entry -/

/-- Entry (a, b) of the block point `t` stores is the specification's weight at row 512 t + a, column b: the word,
    the scale and the residual the payload reads all sit in that row of their arrays. -/
theorem point_entry (c : Dev nD) (t : Fin cfg0.N) (a : Fin 512) (b : Fin 4096) :
    k0_pay1 (F := Ideal) (iblk0 V c 0 t) (iblk0 V c 1 t) (iblk0 V c 2 t) (ix2 a b)
      = Cert.Spec.weight (V c main_arg1) (V c main_arg2) (V c main_v16)
          ⟨t.val * 512 + a.val, by have := Nat.lt_of_lt_of_eq t.isLt N_0; have := a.isLt; omega⟩ b := by
  have ht : t.val < 8 := Nat.lt_of_lt_of_eq t.isLt N_0
  have ha := a.isLt
  have hb := b.isLt
  rw [WeightPay.k0_pay1_apply,
    words_apply V c t (ix2 a ⟨b.val / 2, by omega⟩) (ix2 ⟨t.val * 512 + a.val, by omega⟩ ⟨b.val / 2, by omega⟩) rfl rfl,
    scales_apply V c t (ix2 a 0) (ix2 ⟨t.val * 512 + a.val, by omega⟩ 0) rfl rfl,
    resid_apply V c t (ix2 a b) (ix2 ⟨t.val * 512 + a.val, by omega⟩ b) rfl rfl]
  unfold Cert.Spec.weight Cert.Spec.deq
  rfl

/-- What point `t` writes back is block `t` of the weight function: entry (a, b) of the block is entry
    (512 t + a, b) of the array. -/
theorem flushed0_eq (c : Dev nD) (t : Fin cfg0.N) :
    (dat0 V c).flushed 3 t = ((cfg0.win 3).blk t).view.read (Elt Ideal) (Wk V c) := by
  obtain ⟨-, -, -, -, -, -, e0, e1⟩ := idx_facts0 t
  show (cfg0.win 3).cut (grid0.coords t) ((dat0 V c).after 3 t) = _
  rw [after0_3, wblk_eq]
  funext y
  obtain ⟨a, b, rfl⟩ : ∃ (a : Fin 512) (b : Fin 4096), y = ix2 a b := ⟨y 0, y 1, eq_ix2 (n0 := 512) (n1 := 4096) y⟩
  rw [View.read_apply]
  show k0_pay1 (iblk0 V c 0 t) (iblk0 V c 1 t) (iblk0 V c 2 t) (ix2 a b) = Wk V c _
  rw [point_entry]
  unfold Wk
  refine congrArg₂ (Cert.Spec.weight (V c main_arg1) (V c main_arg2) (V c main_v16)) (Fin.ext ?_) (Fin.ext ?_)
  · show t.val * 512 + a.val = win0_3.index t (0 : Fin 2) * 512 + 1 * a.val
    omega
  · show b.val = win0_3.index t (1 : Fin 2) * 4096 + 1 * b.val
    omega

/-! ## The eight blocks tile the array -/

/-- An entry of the array is in point `t`'s block iff each coordinate is in the block's range on its axis. -/
theorem mem_blk0 (t : Fin cfg0.N) (i : S4096x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v17).slice (win0_3.rect t)).set ↔ _
  rw [View.set_slice_whole, Rect.mem_set_unit]
  exact Iff.rfl

/-- Row r of the array lies in the block of point r / 512, and every point writes its block back. -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 8 := N_0
  refine ⟨⟨(i 0).val / 512, by rw [hN]; omega⟩, flush0_3 _, ?_⟩
  obtain ⟨-, -, -, -, -, -, e0, e1⟩ := idx_facts0 ⟨(i 0).val / 512, by rw [hN]; omega⟩
  rw [mem_blk0]
  intro a
  match a with
  | ⟨0, _⟩ =>
    show win0_3.index _ (0 : Fin 2) * 512 ≤ (i 0).val ∧ (i 0).val < win0_3.index _ (0 : Fin 2) * 512 + 512
    rw [e0]
    show (i 0).val / 512 * 512 ≤ (i 0).val ∧ (i 0).val < (i 0).val / 512 * 512 + 512
    omega
  | ⟨1, _⟩ =>
    show win0_3.index _ (1 : Fin 2) * 4096 ≤ (i 1).val ∧ (i 1).val < win0_3.index _ (1 : Fin 2) * 4096 + 4096
    rw [e1]
    omega

/-- After the eight points the weight build's output array holds that function: every point writes back its
    512-row block of it, and the eight blocks tile the array. -/
theorem final0 (c : Dev nD) : (dat0 V c).arrAt 3 cfg0.N = Wk V c := by
  exact (dat0 V c).arrAt_eq_of_cover 3 (Wk V c) (fun t _ => flushed0_eq V c t) cover0

end Cert.KernelIdeal.Gen

end
-- ==== Proof.KI.MatPay.lean ====
/-
  The matmul kernel's two stored values, read at an index, over the extended reals; and the sum over the
  4096 columns cut into the four blocks of 1024 the kernel accumulates one after the other.
-/
import proofs.«429945_j6210522710042_2_alg».proof.Proof.Gen.KernelIdeal.Skeleton
import proofs.«429945_j6210522710042_2_alg».proof.Proof.Spec
import Idealize.ShloMosaic.Lib.ValueIdx
import Idealize.ShloMosaic.Lib.Pipeline.Value
import Idealize.ShloMosaic.PureOps.Ideal.Laws
import Mathlib.Logic.Equiv.Fin.Basic
import Mathlib.Algebra.BigOperators.Fin
import Mathlib.Algebra.BigOperators.Group.Finset.Defs
import Mathlib.Data.Fintype.BigOperators

noncomputable section

namespace Cert.KernelIdeal.MatPay

open Idealize.ShloMosaic Idealize.ShloMosaic.ValueIdx Cert.KernelIdeal Cert.KernelIdeal.Gen

/-- The value the accumulator is reset to at the first reduction step: zero everywhere. A splat reads its scalar at
    every index, a reshape to the same shape changes nothing, and the scalar is the zero word, which denotes `0`. -/
theorem k1_pay1_apply (a b : Fin 1024) : k1_pay1 (F := Ideal) (ix2 a b) = 0 := by
  unfold k1_pay1
  rw [shapeCast_self, broadcast_apply]
  exact Ideal.ofBits_zero_f32

/-! ### The operand indices of the block product

Both operands are contracted on their second axis. So at output index (r, c) and contraction position q the left
operand is read at (r, q) and the right operand at (c, q): on its first axis each operand reads its own
non-contracted output coordinate, on its second the contraction position. -/

/-- First axis of the left operand: the output's row. -/
theorem lhs_pay2_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

/-- Second axis of the left operand: the contraction position. -/
theorem lhs_pay2_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- First axis of the right operand: the output's column. -/
theorem rhs_pay2_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- Second axis of the right operand: the contraction position. -/
theorem rhs_pay2_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The value stored back into the accumulator: what it held (`v3`) plus the product of the two 1024×1024
    blocks, row `a` of `v4` against row `b` of `v6` (both contracted on their second axis), the product itself
    accumulated from zero. -/
theorem k1_pay2_apply (v3 : Vec Ideal S1024x1024 .f32) (v4 v6 : Vec Ideal S1024x1024 .bf16) (a b : Fin 1024) :
    k1_pay2 (F := Ideal) v3 v4 v6 (ix2 a b)
      = v3 (ix2 a b) + (0 + ∑ kk : Fin 1024, v4 (ix2 a kk) * v6 (ix2 b kk)) := by
  unfold k1_pay2
  -- the three reshapes are to the same shape; the sum of two arrays reads elementwise
  rw [shapeCast_self, shapeCast_self, shapeCast_self, addf_apply]
  simp only [matmul]
  -- the product at an index: the accumulator there (the zero splat) plus the sum over the contraction index
  rw [Ideal.matmul_apply, constant_apply, Ideal.ofBits_zero_f32,
    ← Equiv.sum_comp (contrEquiv1 dot_S1024x1024_S1024x1024_S1024x1024_1_1_0_0_n_n 1024 rfl rfl).symm]
  refine congrArg (fun t => v3 (ix2 a b) + (0 + t)) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 a b) ((contrEquiv1 dot_S1024x1024_S1024x1024_S1024x1024_1_1_0_0_n_n 1024 rfl rfl).symm k) = ix2 a k := funext fun c => Fin.ext (by
    match c with
    | ⟨0, _⟩ => exact lhs_pay2_0 _ _
    | ⟨1, _⟩ => exact (lhs_pay2_1 _ _).trans hk)
  have er : dot_S1024x1024_S1024x1024_S1024x1024_1_1_0_0_n_n.rhsIdx (ix2 a b) ((contrEquiv1 dot_S1024x1024_S1024x1024_S1024x1024_1_1_0_0_n_n 1024 rfl rfl).symm k) = ix2 b k := funext fun c => Fin.ext (by
    match c with
    | ⟨0, _⟩ => exact rhs_pay2_0 _ _
    | ⟨1, _⟩ => exact (rhs_pay2_1 _ _).trans hk)
  rw [el, er]

/-- Column `kk` of reduction block `q`. -/
def col (q : Fin 4) (kk : Fin 1024) : Fin 4096 := ⟨q.val * 1024 + kk.val, by have := q.isLt; have := kk.isLt; omega⟩

/-- Every column is column `kk` of block `q` for exactly one pair (q, kk): k = 1024 q + kk, quotient and
    remainder. So the sum over the 4096 columns is the sum over the four blocks of the sums over each block's 1024
    columns. -/
theorem sum_cols (f : Fin 4096 → EReal) :
    ∑ k : Fin 4096, f k = ∑ q : Fin 4, ∑ kk : Fin 1024, f (col q kk) := by
  rw [← Fintype.sum_prod_type' (fun q kk => f (col q kk))]
  refine (Fintype.sum_equiv (finProdFinEquiv (m := 4) (n := 1024)) _ _ fun x => congrArg f (Fin.ext ?_)).symm
  show x.1.val * 1024 + x.2.val = x.2.val + 1024 * x.1.val
  omega

/-- Four accumulation steps from zero, one per block of 1024 columns, add up to the sum over all 4096 columns. -/
theorem acc_four (f : Fin 4096 → EReal) :
    ((((0 : EReal) + (0 + ∑ kk : Fin 1024, f (col 0 kk))) + (0 + ∑ kk : Fin 1024, f (col 1 kk)))
        + (0 + ∑ kk : Fin 1024, f (col 2 kk))) + (0 + ∑ kk : Fin 1024, f (col 3 kk))
      = ∑ k : Fin 4096, f k := by
  rw [sum_cols f, Fin.sum_univ_four]
  simp only [zero_add]

end Cert.KernelIdeal.MatPay

end
-- ==== Proof.KI.Pieces1.lean ====
/-
  What each case of the matrix-product body leaves in the accumulator and in the output window's buffer, as the
  body's own stored values (the payloads) of what it was handed: at any float instance.
-/
import proofs.«429945_j6210522710042_2_alg».proof.Proof.KI.Reg1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The two zero offsets of a store through a whole 1024×1024 buffer, as the constant-zero function. -/
theorem hz_pieces1 : (![0, 0] : Fin 2 → ℕ) = fun _ => 0 := funext fun a => by fin_cases a <;> rfl

/-- A first reduction step leaves in the accumulator the update of the reset value by the two blocks. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i) (x0 x1 : Vec F S1024x1024 .bf16) :
    sout1_A_0 c i arg3 harg3 arg4 harg4 arg5 harg5 arg6 harg6 hc0 hc1 x0 x1 = k1_pay2 (k1_pay1 (F := F)) x0 x1 := by
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  rw [View.canon_cons_unit_zero (S := S1024x1024) hz_pieces1, View.readCov_unit_zero (S := S1024x1024) _ hz_pieces1]
  simp only [View.readAt_eq_ld, harg3.read_unread, harg4.read_unread, View.ld_unit_zero (S := S1024x1024) hz_pieces1]

/-- A middle reduction step leaves in the accumulator the update of what it held by the two blocks. -/
theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i) (x0 x1 : Vec F S1024x1024 .bf16) (xs0 : Vec F S1024x1024 .f32) :
    sout1_B_0 c i arg3 harg3 arg4 harg4 arg5 harg5 arg6 harg6 hc0 hc1 x0 x1 xs0 = k1_pay2 xs0 x0 x1 := by
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  rw [View.canon_unit_zero (S := S1024x1024) hz_pieces1]
  simp only [View.readAt_eq_ld, harg3.read_unread, harg4.read_unread, harg6.read_unread, View.ld_unit_zero (S := S1024x1024) hz_pieces1]

/-- A last reduction step leaves in the accumulator the update of what it held by the two blocks, -/
theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 x1 : Vec F S1024x1024 .bf16) (xs0 : Vec F S1024x1024 .f32) :
    sout1_C_0 c i arg3 harg3 arg4 harg4 arg5 harg5 arg6 harg6 hc0 hc1 x0 x1 xs0 = k1_pay2 xs0 x0 x1 := by
  unfold sout1_C_0
  rw [View.read_writes_eq_canon _ _ _ (scover1_C_0 c i arg3 harg3 arg4 harg4 arg5 harg5 arg6 harg6 hc0 hc1 x0 x1 xs0)]
  unfold kernelRun1_C
  dsimp only
  sl_unfold_words
  rw [View.canon_unit_zero (S := S1024x1024) hz_pieces1]
  simp only [View.readAt_eq_ld, harg3.read_unread, harg4.read_unread, harg6.read_unread, View.ld_unit_zero (S := S1024x1024) hz_pieces1]

/-- and the same value in the output window's buffer. -/
theorem out1_C_2_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i) (x0 x1 : Vec F S1024x1024 .bf16) (xs0 : Vec F S1024x1024 .f32) :
    out1_C_2 c i arg3 harg3 arg4 harg4 arg5 harg5 arg6 harg6 hc0 hc1 x0 x1 xs0 = k1_pay2 xs0 x0 x1 := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero (S := S1024x1024) hz_pieces1, View.readCov_unit_zero (S := S1024x1024) _ hz_pieces1]
  simp only [View.readAt_eq_ld, harg3.read_unread, harg4.read_unread, harg6.read_unread, View.ld_unit_zero (S := S1024x1024) hz_pieces1]

end Cert.KernelIdeal.Gen

end
-- ==== Proof.KI.Product.lean ====
/-
  What the blocked matrix product leaves in its output array, over the extended reals: one function of the
  two arrays it reads, entry by entry.
-/
import proofs.«429945_j6210522710042_2_alg».proof.Proof.KI.Reg1
import proofs.«429945_j6210522710042_2_alg».proof.Proof.KI.MatPay
import proofs.«429945_j6210522710042_2_alg».proof.Proof.KI.Pieces1
import proofs.«429945_j6210522710042_2_alg».proof.Proof.Spec
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The tokens' array as the region finds it: 4096 rows of 4096 columns. -/
abbrev tokArr (c : Dev nD) : Vec Ideal S4096x4096 .bf16 := V c main_v18
/-- The weights' array as the region finds it. -/
abbrev wtArr (c : Dev nD) : Vec Ideal S4096x4096 .bf16 := V c main_v17

/-- The product array as ONE function of the two arrays the region finds: entry (t, o) is row `t` of the first
    against row `o` of the second, summed over the 4096 columns. -/
def MM (c : Dev nD) : Buf (Elt Ideal) ((c : Thread nD τ).loc main_v19) :=
  fun j => (∑ k : Fin 4096, tokArr V c (ix2 (j 0) k) * wtArr V c (ix2 (j 1) k) : EReal)

open Cert.KernelIdeal.MatPay

/-! ## The grid, the arrays and the blocks

The grid is 4 × 4 × 4 with the reduction block running fastest: point t has token block row t / 16, weight block
row t / 4 mod 4 and reduction block t mod 4. -/

/-- The grid has 64 points. -/
theorem points1 : cfg1.N = 64 := by decide

/-- The tokens' block at a point. -/
abbrev tokBlk (c : Dev nD) (t : Fin cfg1.N) : Vec Ideal S1024x1024 .bf16 := iblk1 V c 0 t
/-- The weights' block at a point. -/
abbrev wtBlk (c : Dev nD) (t : Fin cfg1.N) : Vec Ideal S1024x1024 .bf16 := iblk1 V c 1 t

/-- The three index maps over the grid: the tokens' block is (t / 16, t mod 4), the weights' block is
    (t / 4 mod 4, t mod 4), the output's block is (t / 16, t / 4 mod 4). -/
theorem blockIdx1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N, _)

/-- Entry (a, kk) of the tokens' block at point t is the array's entry at row 1024 (t / 16) + a and column
    1024 (t mod 4) + kk: a block's coordinate is the block index times the block size plus the coordinate inside. -/
theorem tokBlk_apply (c : Dev nD) (t : Fin cfg1.N) (a kk : Fin 1024) (r k : Fin 4096)
    (hr : r.val = t.val / 16 * 1024 + a.val) (hk : k.val = t.val % 4 * 1024 + kk.val) :
    tokBlk V c t (ix2 a kk) = tokArr V c (ix2 r k) := by
  obtain ⟨e0, e1, -, -, -, -⟩ := blockIdx1 t
  show iblk1 V c 0 t (ix2 a kk) = V c main_v18 (ix2 r k)
  unfold iblk1
  rw [View.read_apply]
  show V c main_v18 _ = V c main_v18 _
  congr 1
  funext d
  apply Fin.ext
  match d with
  | ⟨0, _⟩ => show win1_0.index t (0 : Fin 2) * 1024 + 1 * a.val = r.val; rw [e0, hr]; omega
  | ⟨1, _⟩ => show win1_0.index t (1 : Fin 2) * 1024 + 1 * kk.val = k.val; rw [e1, hk]; omega

/-- Entry (b, kk) of the weights' block at point t is the array's entry at row 1024 (t / 4 mod 4) + b and column
    1024 (t mod 4) + kk. -/
theorem wtBlk_apply (c : Dev nD) (t : Fin cfg1.N) (b kk : Fin 1024) (s k : Fin 4096)
    (hs : s.val = t.val / 4 % 4 * 1024 + b.val) (hk : k.val = t.val % 4 * 1024 + kk.val) :
    wtBlk V c t (ix2 b kk) = wtArr V c (ix2 s k) := by
  obtain ⟨-, -, e2, e3, -, -⟩ := blockIdx1 t
  show iblk1 V c 1 t (ix2 b kk) = V c main_v17 (ix2 s k)
  unfold iblk1
  rw [View.read_apply]
  show V c main_v17 _ = V c main_v17 _
  congr 1
  funext d
  apply Fin.ext
  match d with
  | ⟨0, _⟩ => show win1_1.index t (0 : Fin 2) * 1024 + 1 * b.val = s.val; rw [e2, hs]; omega
  | ⟨1, _⟩ => show win1_1.index t (1 : Fin 2) * 1024 + 1 * kk.val = k.val; rw [e3, hk]; omega

/-! ## The accumulator after each point -/

/-- Row r of the tokens against row s of the weights, column by column. -/
def rowProd (c : Dev nD) (r s : Fin 4096) : Fin 4096 → EReal := fun k => tokArr V c (ix2 r k) * wtArr V c (ix2 s k)

/-- The accumulation of the first n + 1 blocks of 1024 columns, in the kernel's order and from the kernel's zeros. -/
def partSum (f : Fin 4096 → EReal) : ℕ → EReal
  | 0 => 0 + (0 + ∑ kk : Fin 1024, f (col 0 kk))
  | n + 1 => partSum f n + (0 + ∑ kk : Fin 1024, f (col ⟨(n + 1) % 4, Nat.mod_lt _ (by decide)⟩ kk))

theorem partSum_succ (f : Fin 4096 → EReal) (n : ℕ) :
    partSum f (n + 1) = partSum f n + (0 + ∑ kk : Fin 1024, f (col ⟨(n + 1) % 4, Nat.mod_lt _ (by decide)⟩ kk)) := rfl

/-- All four blocks: the whole sum over the 4096 columns. -/
theorem partSum_three (f : Fin 4096 → EReal) : partSum f 3 = ∑ k : Fin 4096, f k := by
  rw [← acc_four f]
  rfl

/-- At a first reduction step the accumulator is reset and receives the first block's products. -/
theorem acc_first (c : Dev nD) (t : Fin cfg1.N) (h0 : t.val % 4 = 0) (a b : Fin 1024) (p q : Fin 4)
    (hp : p.val = t.val / 16 % 4) (hq : q.val = t.val / 4 % 4) :
    (outsAt1 V c t.val t.isLt).2 (ix2 a b) = partSum (rowProd V c (col p a) (col q b)) 0 := by
  have h1 : ¬t.val % 4 = 3 := by omega
  have ht : t.val < 64 := points1 ▸ t.isLt
  rw [outsAt1_A V c t h0 h1]
  dsimp only
  refine (congrFun (sout1_A_0_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (tokBlk V c t) (wtBlk V c t)) (ix2 a b)).trans ?_
  refine (k1_pay2_apply (k1_pay1 (F := Ideal)) (tokBlk V c t) (wtBlk V c t) a b).trans ?_
  rw [k1_pay1_apply]
  show _ = (0 : EReal) + (0 + ∑ kk : Fin 1024, rowProd V c (col p a) (col q b) (col 0 kk))
  refine congrArg (fun s => (0 : EReal) + (0 + s)) (Finset.sum_congr rfl fun kk _ => ?_)
  rw [tokBlk_apply V c t a kk (col p a) (col 0 kk) (by show p.val * 1024 + a.val = _; omega) (by show (0 : Fin 4).val * 1024 + kk.val = _; omega),
    wtBlk_apply V c t b kk (col q b) (col 0 kk) (by show q.val * 1024 + b.val = _; omega) (by show (0 : Fin 4).val * 1024 + kk.val = _; omega)]
  rfl

/-- One more block: the stored value is what the accumulator held plus the next block's products. -/
theorem acc_step (c : Dev nD) (t : Fin cfg1.N) (xs : Vec Ideal S1024x1024 .f32) (a b : Fin 1024) (p q : Fin 4) (m : ℕ)
    (hp : p.val = t.val / 16 % 4) (hq : q.val = t.val / 4 % 4) (hm : m + 1 = t.val % 4)
    (ih : xs (ix2 a b) = partSum (rowProd V c (col p a) (col q b)) m) :
    k1_pay2 (F := Ideal) xs (tokBlk V c t) (wtBlk V c t) (ix2 a b) = partSum (rowProd V c (col p a) (col q b)) (m + 1) := by
  have ht : t.val < 64 := points1 ▸ t.isLt
  refine (k1_pay2_apply xs (tokBlk V c t) (wtBlk V c t) a b).trans ?_
  rw [partSum_succ, ih]
  refine congrArg (fun s => partSum (rowProd V c (col p a) (col q b)) m + (0 + s)) (Finset.sum_congr rfl fun kk _ => ?_)
  rw [tokBlk_apply V c t a kk (col p a) (col ⟨(m + 1) % 4, Nat.mod_lt _ (by decide)⟩ kk) (by show p.val * 1024 + a.val = _; omega) (by show (m + 1) % 4 * 1024 + kk.val = _; omega),
    wtBlk_apply V c t b kk (col q b) (col ⟨(m + 1) % 4, Nat.mod_lt _ (by decide)⟩ kk) (by show q.val * 1024 + b.val = _; omega) (by show (m + 1) % 4 * 1024 + kk.val = _; omega)]
  rfl

/-- At a later reduction step the accumulator receives one more block over what the point before left in it. -/
theorem acc_next (c : Dev nD) (t : Fin cfg1.N) (h0 : ¬t.val % 4 = 0) (a b : Fin 1024) (p q : Fin 4) (m : ℕ)
    (hp : p.val = t.val / 16 % 4) (hq : q.val = t.val / 4 % 4) (hm : m + 1 = t.val % 4)
    (ih : (outsAt1 V c (t.val - 1) (Nat.lt_of_le_of_lt (Nat.sub_le _ _) t.isLt)).2 (ix2 a b) = partSum (rowProd V c (col p a) (col q b)) m) :
    (outsAt1 V c t.val t.isLt).2 (ix2 a b) = partSum (rowProd V c (col p a) (col q b)) (m + 1) := by
  by_cases h3 : t.val % 4 = 3
  · rw [outsAt1_C V c t h0 h3]
    dsimp only
    refine (congrFun (sout1_C_0_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (tokBlk V c t) (wtBlk V c t) (outsAt1 V c (t.val - 1) (Nat.lt_of_le_of_lt (Nat.sub_le _ _) t.isLt)).2) (ix2 a b)).trans ?_
    exact acc_step V c t _ a b p q m hp hq hm ih
  · rw [outsAt1_B V c t h0 h3]
    dsimp only
    refine (congrFun (sout1_B_0_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h3 ((hcond1_1 t).mp h)) (tokBlk V c t) (wtBlk V c t) (outsAt1 V c (t.val - 1) (Nat.lt_of_le_of_lt (Nat.sub_le _ _) t.isLt)).2) (ix2 a b)).trans ?_
    exact acc_step V c t _ a b p q m hp hq hm ih

/-- After point n the accumulator holds, at entry (a, b), the accumulation over the reduction blocks up to n's of row
    a of n's token block row against row b of n's weight block row: by induction on the point. -/
theorem acc_apply (c : Dev nD) : ∀ (n : ℕ) (hn : n < cfg1.N) (a b : Fin 1024) (p q : Fin 4) (r : ℕ),
    p.val = n / 16 % 4 → q.val = n / 4 % 4 → r = n % 4 →
    (outsAt1 V c n hn).2 (ix2 a b) = partSum (rowProd V c (col p a) (col q b)) r
  | 0, hn, a, b, p, q, r, hp, hq, hr => by
    subst hr
    exact acc_first V c ⟨0, hn⟩ rfl a b p q hp hq
  | n + 1, hn, a, b, p, q, r, hp, hq, hr => by
    have hN : n + 1 < 64 := points1 ▸ hn
    by_cases h0 : (n + 1) % 4 = 0
    · subst hr
      rw [h0]
      exact acc_first V c ⟨n + 1, hn⟩ h0 a b p q hp hq
    · obtain ⟨m, rfl⟩ : ∃ m, r = m + 1 := ⟨r - 1, by omega⟩
      refine acc_next V c ⟨n + 1, hn⟩ h0 a b p q m hp hq hr ?_
      exact acc_apply c n (Nat.lt_of_succ_lt hn) a b p q m (by omega) (by omega) (by omega)

/-! ## What a last reduction step writes back -/

/-- At a last reduction step the output window's buffer receives the accumulator: at entry (a, b) the whole sum over
    the 4096 columns, the product array's entry at the block's place. -/
theorem out_apply (c : Dev nD) (t : Fin cfg1.N) (h3 : t.val % 4 = 3) (a b : Fin 1024) (r s : Fin 4096)
    (hr : r.val = t.val / 16 * 1024 + a.val) (hs : s.val = t.val / 4 % 4 * 1024 + b.val) :
    (outsAt1 V c t.val t.isLt).1 (ix2 a b) = MM V c (ix2 r s) := by
  have h0 : ¬t.val % 4 = 0 := by omega
  have ht : t.val < 64 := points1 ▸ t.isLt
  have e : (outsAt1 V c t.val t.isLt).1 = (outsAt1 V c t.val t.isLt).2 := by
    rw [outsAt1_C V c t h0 h3]
    dsimp only
    exact (out1_C_2_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (tokBlk V c t) (wtBlk V c t) (outsAt1 V c (t.val - 1) (Nat.lt_of_le_of_lt (Nat.sub_le _ _) t.isLt)).2).trans
      (sout1_C_0_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (tokBlk V c t) (wtBlk V c t) (outsAt1 V c (t.val - 1) (Nat.lt_of_le_of_lt (Nat.sub_le _ _) t.isLt)).2).symm
  rw [e, acc_apply V c t.val t.isLt a b ⟨t.val / 16 % 4, Nat.mod_lt _ (by decide)⟩ ⟨t.val / 4 % 4, Nat.mod_lt _ (by decide)⟩ 3 rfl rfl h3.symm, partSum_three]
  have er : col ⟨t.val / 16 % 4, Nat.mod_lt _ (by decide)⟩ a = r := Fin.ext (by show t.val / 16 % 4 * 1024 + a.val = r.val; omega)
  have es : col ⟨t.val / 4 % 4, Nat.mod_lt _ (by decide)⟩ b = s := Fin.ext (by show t.val / 4 % 4 * 1024 + b.val = s.val; omega)
  rw [er, es]
  rfl

/-- What a flushing point writes back is its block of the product array. -/
theorem flushed_eq1 (c : Dev nD) (t : Fin cfg1.N) (hf : (cfg1.win 2).flush t = true) :
    (dat1 V c).flushed 2 t = ((cfg1.win 2).blk t).view.read (Elt Ideal) (MM V c) := by
  have h3 : t.val % 4 = 3 := (flush1_2 t).mp hf
  have ht : t.val < 64 := points1 ▸ t.isLt
  obtain ⟨-, -, -, -, e4, e5⟩ := blockIdx1 t
  show (cfg1.win 2).cut (grid1.coords t) ((dat1 V c).after 2 t) = _
  rw [after1_2]
  funext j
  have hj0 : (j 0).val < 1024 := (j 0).isLt
  have hj1 : (j 1).val < 1024 := (j 1).isLt
  rw [View.read_apply]
  show (outsAt1 V c t.val t.isLt).1 ((cfg1.win 2).xinj (grid1.coords t) j) = MM V c (((cfg1.win 2).blk t).view.emb j)
  have e1 : (cfg1.win 2).xinj (grid1.coords t) j = ix2 (⟨(j 0).val, hj0⟩ : Fin 1024) (⟨(j 1).val, hj1⟩ : Fin 1024) :=
    funext fun d => Fin.ext (by
      match d with
      | ⟨0, _⟩ => rfl
      | ⟨1, _⟩ => rfl)
  have e2 : ((cfg1.win 2).blk t).view.emb j
      = ix2 (⟨t.val / 16 * 1024 + (j 0).val, by omega⟩ : Fin 4096) (⟨t.val / 4 % 4 * 1024 + (j 1).val, by omega⟩ : Fin 4096) :=
    funext fun d => Fin.ext (by
      match d with
      | ⟨0, _⟩ => show win1_2.index t (0 : Fin 2) * 1024 + 1 * (j 0).val = t.val / 16 * 1024 + (j 0).val; rw [e4]; omega
      | ⟨1, _⟩ => show win1_2.index t (1 : Fin 2) * 1024 + 1 * (j 1).val = t.val / 4 % 4 * 1024 + (j 1).val; rw [e5]; omega)
  rw [e1, e2]
  exact out_apply V c t h3 _ _ _ _ rfl rfl

/-! ## The sixteen written blocks tile the array -/

/-- An entry is in point t's block iff each coordinate is in the block's range on its axis. -/
theorem mem_blk1 (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v19).slice (win1_2.rect t)).set ↔ _
  rw [View.set_slice_whole, Rect.mem_set_unit]
  exact Iff.rfl

/-- Entry (r, s) lies in the block of the point whose token block row is r / 1024 and whose weight block row is s / 1024. -/
theorem mem_blk_of (i : S4096x4096.Idx) (t : Fin cfg1.N) (hi : (i 0).val / 1024 = t.val / 16) (hj : (i 1).val / 1024 = t.val / 4 % 4) :
    i ∈ ((cfg1.win 2).blk t).view.set := by
  obtain ⟨-, -, -, -, e4, e5⟩ := blockIdx1 t
  rw [mem_blk1]
  intro a
  match a with
  | ⟨0, _⟩ => show win1_2.index t (0 : Fin 2) * 1024 ≤ (i 0).val ∧ (i 0).val < win1_2.index t (0 : Fin 2) * 1024 + 1024; rw [e4]; omega
  | ⟨1, _⟩ => show win1_2.index t (1 : Fin 2) * 1024 ≤ (i 1).val ∧ (i 1).val < win1_2.index t (1 : Fin 2) * 1024 + 1024; rw [e5]; omega

/-- Every entry of the output array lies in the block of a point with the last reduction step. -/
theorem cover1 (i : S4096x4096.Idx) : ∃ t : Fin cfg1.N, (cfg1.win 2).flush t = true ∧ i ∈ ((cfg1.win 2).blk t).view.set := by
  have h0 : (i 0).val < 4096 := (i 0).isLt
  have h1 : (i 1).val < 4096 := (i 1).isLt
  have hlt : (i 0).val / 1024 * 16 + (i 1).val / 1024 * 4 + 3 < cfg1.N := by rw [points1]; omega
  refine ⟨⟨(i 0).val / 1024 * 16 + (i 1).val / 1024 * 4 + 3, hlt⟩, (flush1_2 _).mpr ?_, mem_blk_of i _ ?_ ?_⟩
  · show ((i 0).val / 1024 * 16 + (i 1).val / 1024 * 4 + 3) % 4 = 3; omega
  · show (i 0).val / 1024 = ((i 0).val / 1024 * 16 + (i 1).val / 1024 * 4 + 3) / 16; omega
  · show (i 1).val / 1024 = ((i 0).val / 1024 * 16 + (i 1).val / 1024 * 4 + 3) / 4 % 4; omega

/-- After the 64 points the matrix product's output array holds that function: the sixteen points with the last
    reduction step write back their 1024×1024 blocks of it, and those blocks tile the array. -/
theorem final1 (c : Dev nD) : (dat1 V c).arrAt 2 cfg1.N = MM V c := by
  exact (dat1 V c).arrAt_eq_of_cover 2 (MM V c) (fun t hf => flushed_eq1 V c t hf) cover1

end Cert.KernelIdeal.Gen

end
-- ==== Proof.KI.KernelValue.lean ====
/-
  The kernel's result array, over the extended reals, is the specification `Cert.Spec.G` of the argument
  arrays: the host stretches read back, the two regions' arrays as whole-array functions, and the one law that
  joins them — the dense residual is scattered into a ZERO array, so each of its entries is zero plus the sum of
  the updates landing there.
-/
import proofs.«429945_j6210522710042_2_alg».proof.Proof.KI.Run
import proofs.«429945_j6210522710042_2_alg».proof.Proof.KI.Weights
import proofs.«429945_j6210522710042_2_alg».proof.Proof.KI.Product
import proofs.«429945_j6210522710042_2_alg».proof.Proof.Spec
import Idealize.ShloMosaic.Lib.StableHlo.Run
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The scatter's index pairs as the kernel's host operations make them from the row and column index
    vectors: a negative index is moved up by 4096, then the two vectors are laid side by side. -/
def idxK (rows cols : IVec S838860 32) : IVec S838860x2 32 :=
  concatenate S838860x2 1 [⟨S838860x1, (broadcastInDim S838860x1 ![0] bcast_S838860_S838860x1_0 (select (cmpi .slt rows (broadcastInDim S838860 ![] bcast_S_S838860 (constantI S_ 32 0#32))) (addi rows (broadcastInDim S838860 ![] bcast_S_S838860 (constantI S_ 32 4096#32))) rows))⟩, ⟨S838860x1, (broadcastInDim S838860x1 ![0] bcast_S838860_S838860x1_0 (select (cmpi .slt cols (broadcastInDim S838860 ![] bcast_S_S838860 (constantI S_ 32 0#32))) (addi cols (broadcastInDim S838860 ![] bcast_S_S838860 (constantI S_ 32 4096#32))) cols))⟩] concatenates_S838860x1_S838860x1_S838860x2_d1

/-- The scatter's updates: the residual values times one. -/
def updK (vals : FVec Ideal S838860 .f32) : FVec Ideal S838860 .f32 :=
  mulf (broadcastInDim S838860 ![] bcast_S_S838860 (constant S_ .f32 0x3F800000#32)) vals

/-! ## The host stretches read back -/

/-- The dense residual the weight build finds: the updates scattered into a zero array. -/
theorem E1_v16 (c : Dev nD) :
    E1 m ρ c main_v16
      = Host.scatterAdd scatter_S4096x4096_S838860x2_S838860_n_01_01_1
          (broadcastInDim S4096x4096 ![] bcast_S_S4096x4096 (constant S_ .f32 0x00000000#32))
          (idxK (m ((c.tc : Thread nD τ).loc main_arg4)) (m ((c.tc : Thread nD τ).loc main_arg5)))
          (updK (m ((c.tc : Thread nD τ).loc main_arg3))) := by
  show StableHlo.after hostOps0 (B0 m ρ c) (Proc.devRef .tc main_v16) = _
  after_results_simp <;> rfl

theorem E1_arg1 (c : Dev nD) : E1 m ρ c main_arg1 = m ((c.tc : Thread nD τ).loc main_arg1) :=
  StableHlo.after_of_writes_sub hostOps0 _ hostOps0_writes (by decide)
theorem E1_arg2 (c : Dev nD) : E1 m ρ c main_arg2 = m ((c.tc : Thread nD τ).loc main_arg2) :=
  StableHlo.after_of_writes_sub hostOps0 _ hostOps0_writes (by decide)

theorem B2_main_arg0 (c : Dev nD) : B2 m ρ c (Proc.devRef .tc main_arg0) = m ((c.tc : Thread nD τ).loc main_arg0) :=
  (B2_of_ne m ρ c main_arg0 (by decide)).trans (StableHlo.after_of_writes_sub hostOps0 _ hostOps0_writes (by decide))

/-- The first operand of the matrix product: `x` cast to the narrower format. -/
theorem E3_v18 (c : Dev nD) :
    (E3 m ρ c main_v18 : S4096x4096.Idx → EReal) = (m ((c.tc : Thread nD τ).loc main_arg0) : S4096x4096.Idx → EReal) := by
  show StableHlo.after hostOps1 (B2 m ρ c) (Proc.devRef .tc main_v18) = _
  after_results
  rw [B2_main_arg0]
  rfl

/-- The second operand of the matrix product: what the weight build left. -/
theorem E3_v17 (c : Dev nD) : E3 m ρ c main_v17 = (dat0 (E1 m ρ) c).arrAt 3 cfg0.N :=
  (StableHlo.after_of_writes_sub hostOps1 _ hostOps1_writes (by decide)).trans (B2_arr m ρ c 3)

/-! ## The result -/

/-- An accumulating scatter onto an array of zeros leaves, at each entry, zero plus the sum of the updates landing
    there. -/
theorem scatter_on_zero (d : ScatterDims S4096x4096 S838860x2 S838860) (Z : FVec Ideal S4096x4096 .f32) (hZ : ∀ i, Z i = 0)
    (idx : IVec S838860x2 32) (upd : FVec Ideal S838860 .f32) (i : S4096x4096.Idx) :
    Host.scatterAdd (F := Ideal) d Z idx upd i = 0 + Cert.Spec.resid d idx upd i := by
  show Z i + _ = _
  rw [hZ]; rfl

/-- The dense residual the weight build finds, entry by entry: zero plus the sum of the updates landing there. -/
theorem E1_v16_apply (c : Dev nD) (i : S4096x4096.Idx) :
    (E1 m ρ c main_v16 : S4096x4096.Idx → EReal) i
      = 0 + Cert.Spec.resid scatter_S4096x4096_S838860x2_S838860_n_01_01_1
          (idxK (m ((c.tc : Thread nD τ).loc main_arg4)) (m ((c.tc : Thread nD τ).loc main_arg5)))
          (updK (m ((c.tc : Thread nD τ).loc main_arg3))) i := by
  rw [E1_v16]
  exact scatter_on_zero _ _ (fun _ => Ideal.ofBits_zero_f32) _ _ i

/-- The weights the matrix product finds, entry by entry: the specification's. -/
theorem weights_apply (c : Dev nD) (o i : Fin 4096) :
    wtArr (E3 m ρ) c (ix2 o i)
      = Cert.Spec.weight (m ((c.tc : Thread nD τ).loc main_arg1)) (m ((c.tc : Thread nD τ).loc main_arg2))
          (Cert.Spec.resid scatter_S4096x4096_S838860x2_S838860_n_01_01_1
            (idxK (m ((c.tc : Thread nD τ).loc main_arg4)) (m ((c.tc : Thread nD τ).loc main_arg5)))
            (updK (m ((c.tc : Thread nD τ).loc main_arg3)))) o i := by
  have h1 : wtArr (E3 m ρ) c = Wk (E1 m ρ) c := (E3_v17 m ρ c).trans (final0 (E1 m ρ) c)
  rw [h1]
  show Cert.Spec.weight (E1 m ρ c main_arg1) (E1 m ρ c main_arg2) (E1 m ρ c main_v16) o i = _
  rw [E1_arg1, E1_arg2]
  unfold Cert.Spec.weight
  rw [E1_v16_apply, zero_add]

/-- The tokens the matrix product finds, entry by entry: `x` (the cast to the narrower format changes nothing
    over the extended reals). -/
theorem tokens_apply (c : Dev nD) (i : S4096x4096.Idx) :
    tokArr (E3 m ρ) c i = m ((c.tc : Thread nD τ).loc main_arg0) i :=
  congrFun (E3_v18 m ρ c) i

/-- The result array the matrix product leaves is `G` of the arguments, the residual being the sum of the
    updates landing on each entry. -/
theorem kernel_value (c : Dev nD) :
    (dat1 (E3 m ρ) c).arrAt 2 cfg1.N
      = Cert.Spec.G (m ((c.tc : Thread nD τ).loc main_arg0)) (m ((c.tc : Thread nD τ).loc main_arg1)) (m ((c.tc : Thread nD τ).loc main_arg2))
          (Cert.Spec.resid scatter_S4096x4096_S838860x2_S838860_n_01_01_1
            (idxK (m ((c.tc : Thread nD τ).loc main_arg4)) (m ((c.tc : Thread nD τ).loc main_arg5)))
            (updK (m ((c.tc : Thread nD τ).loc main_arg3)))) := by
  rw [final1 (E3 m ρ) c]
  funext j
  show (∑ k : Fin 4096, tokArr (E3 m ρ) c (ix2 (j 0) k) * wtArr (E3 m ρ) c (ix2 (j 1) k) : EReal) = Cert.Spec.G _ _ _ _ j
  unfold Cert.Spec.G
  refine Finset.sum_congr rfl fun k _ => ?_
  rw [weights_apply m ρ c (j 1) k, tokens_apply m ρ c (ix2 (j 0) k)]

end Cert.KernelIdeal.Gen

end
-- ==== Proof.RefValue.lean ====
/-
  The reference's result, at the extended reals, is the specification `Cert.Spec.G` of the argument arrays.
-/
import proofs.«429945_j6210522710042_2_alg».proof.Defs
import proofs.«429945_j6210522710042_2_alg».proof.Proof.Gen.ReferenceIdeal
import proofs.«429945_j6210522710042_2_alg».proof.Proof.Gen.ReferenceIdeal.Run
import proofs.«429945_j6210522710042_2_alg».proof.Proof.Gen.ReferenceIdeal.Read
import proofs.«429945_j6210522710042_2_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Idealize.ShloMosaic.TcCoe
open Cert.ReferenceIdeal Cert.ReferenceIdeal.Gen Cert.ReferenceIdeal.Value

/-- The scatter's index pairs as the reference's host operations make them from the row and column index
    vectors: a negative index is moved up by 4096, then the two vectors are laid side by side. -/
def idxR (rows cols : IVec S838860 32) : IVec S838860x2 32 :=
  concatenate S838860x2 1 [⟨S838860x1, (broadcastInDim S838860x1 ![0] bcast_S838860_S838860x1_0 (select (cmpi .slt rows (broadcastInDim S838860 ![] bcast_S_S838860 (constantI S_ 32 0#32))) (addi rows (broadcastInDim S838860 ![] bcast_S_S838860 (constantI S_ 32 4096#32))) rows))⟩, ⟨S838860x1, (broadcastInDim S838860x1 ![0] bcast_S838860_S838860x1_0 (select (cmpi .slt cols (broadcastInDim S838860 ![] bcast_S_S838860 (constantI S_ 32 0#32))) (addi cols (broadcastInDim S838860 ![] bcast_S_S838860 (constantI S_ 32 4096#32))) cols))⟩] concatenates_S838860x1_S838860x1_S838860x2_d1

/-- The scatter's updates: the residual values times one. -/
def updR (vals : FVec Ideal S838860 .f32) : FVec Ideal S838860 .f32 :=
  mulf (broadcastInDim S838860 ![] bcast_S_S838860 (constant S_ .f32 0x3F800000#32)) vals

/-! ## Words: subtracting the integer eight before or after the conversion -/

/-- The float literal both programs subtract denotes the real number eight. -/
theorem eight_eq : Cert.Spec.eight = ((8 : ℝ) : EReal) := by
  show Ideal.ofBits .f32 0x41000000#32 = _
  simp [Ideal.ofBits, Ideal.ieee, -EReal.coe_mul]; norm_num

/-- A 32-bit word whose signed value is at least eight above the least one loses exactly eight under the
    wrapping subtraction of the word eight: no wrap occurs. -/
theorem sub8 (a : BitVec 32) (h : -2147483640 ≤ a.toInt) : (a - 8#32).toInt = a.toInt - 8 := by
  have h2 : a.toInt < 2 ^ (32 - 1) := BitVec.toInt_lt
  have h8 : (8#32 : BitVec 32).toInt = 8 := by decide
  rw [BitVec.toInt_sub, h8, Int.bmod_eq_of_le (by omega) (by omega)]

/-- The low four bits of a word are a value between 0 and 15, far above the least signed value. -/
theorem low_bound (p : BitVec 32) : -2147483640 ≤ (p &&& 15#32).toInt := by
  have h : (p &&& 15#32).toNat ≤ 15 := by
    rw [BitVec.toNat_and]; exact Nat.and_le_right
  rw [BitVec.toInt_eq_toNat_of_lt (by omega)]; omega

/-- A word shifted down four places with its sign is its signed value divided by sixteen (rounding down),
    which lies within ±2^27. -/
theorem high_bound (p : BitVec 32) : -2147483640 ≤ (p.sshiftRight 4).toInt := by
  have h3 : -2 ^ (32 - 1) ≤ p.toInt := BitVec.le_toInt p
  rw [BitVec.toInt_sshiftRight, Int.shiftRight_eq_div_pow]
  show -2147483640 ≤ p.toInt / ((2 ^ 4 : Nat) : Int)
  omega

/-- Converting after the integer subtraction is converting first and subtracting the float eight. -/
theorem sub8_coe (a : BitVec 32) (h : -2147483640 ≤ a.toInt) :
    (((a - 8#32).toInt : ℝ) : EReal) = ((a.toInt : ℝ) : EReal) - Cert.Spec.eight := by
  rw [eight_eq, sub8 a h, ← EReal.coe_sub]; push_cast; rfl

/-- The host's arithmetic shift by four places is the signed shift. -/
theorem shr4 (x : BitVec 32) : IntOp.shrsi .host x 4#32 = x.sshiftRight 4 := by
  simp [IntOp.shrsi]

/-! ## The unpacked integer weights at an entry -/

/-- The word of a row of 2048 words that holds column i of 4096. -/
abbrev half (i : Fin 4096) : Fin 2048 := ⟨i.val / 2, by have := i.isLt; omega⟩

/-- The reshaped stack of the two nibble arrays at row o, column i: column i is position i % 2 of the
    pair stacked at word i / 2, so an even column reads the low nibble and an odd one the shifted word, each
    less the integer eight. -/
theorem q_apply (packed : IVec S4096x2048 32) (o i : Fin 4096) :
    Read.val_main_v11 (F := Ideal) packed (ix2 o i) =
      if i.val % 2 = 0 then (packed (ix2 o (half i)) &&& 15#32) - 8#32
      else (packed (ix2 o (half i))).sshiftRight 4 - 8#32 := by
  have ho := o.isLt
  have hi := i.isLt
  have hcast : Read.val_main_v11 (F := Ideal) packed (ix2 o i)
      = Read.val_main_v10 (F := Ideal) packed (ix3 o (half i) (⟨i.val % 2, by omega⟩ : Fin 2)) := by
    unfold Read.val_main_v11
    exact shapeCast_apply _ shapeCasts_S4096x2048x2_S4096x4096 (ix2 o i) _
      (by rewrite [Shape.rowMajor_val_three, Shape.rowMajor_val_two]
          show (o.val * 2048 + i.val / 2) * 2 + i.val % 2 = o.val * 4096 + i.val
          omega)
  have e8 : Read.idx_main_v8 (ix3 o (half i) (0 : Fin 1)) = ix2 o (half i) :=
    funext fun a => match a with | ⟨0, _⟩ => rfl | ⟨1, _⟩ => rfl
  have e9 : Read.idx_main_v9 (ix3 o (half i) (0 : Fin 1)) = ix2 o (half i) :=
    funext fun a => match a with | ⟨0, _⟩ => rfl | ⟨1, _⟩ => rfl
  rw [hcast]
  unfold Read.val_main_v10
  by_cases h : i.val % 2 = 0
  · rw [if_pos h]
    refine (concatenate_pair_apply_left (t := S4096x2048x2) (s₁ := S4096x2048x1) (s₂ := S4096x2048x1) 2 _ _
      concatenates_S4096x2048x1_S4096x2048x1_S4096x2048x2_d2 _ rfl (ix3 o (half i) (0 : Fin 1))
      (fun b => match b with
        | ⟨0, _⟩ => rfl
        | ⟨1, _⟩ => rfl
        | ⟨2, _⟩ => by show 0 = i.val % 2; omega)).trans ?_
    rw [Read.val_main_v8_apply, e8]
    rfl
  · rw [if_neg h]
    refine (concatenate_pair_apply_right (t := S4096x2048x2) (s₁ := S4096x2048x1) (s₂ := S4096x2048x1) 2 _ _
      concatenates_S4096x2048x1_S4096x2048x1_S4096x2048x2_d2 _ rfl rfl (ix3 o (half i) (0 : Fin 1))
      (fun b hb => match b, hb with
        | ⟨0, _⟩, _ => rfl
        | ⟨1, _⟩, _ => rfl
        | ⟨2, _⟩, hb => absurd rfl hb)
      (by show 0 + 1 = i.val % 2; omega)).trans ?_
    rw [Read.val_main_v9_apply, e9]
    show IntOp.subi (IntOp.shrsi .host (packed (ix2 o (half i))) 4#32) 8#32 = _
    rw [shr4]
    rfl

/-- The converted integer weight at an entry is the specification's dequantized value. -/
theorem v12_apply (packed : IVec S4096x2048 32) (o i : Fin 4096) :
    Read.val_main_v12 (F := Ideal) packed (ix2 o i) = Cert.Spec.deq packed o i := by
  rw [Read.val_main_v12_apply, q_apply]
  unfold Cert.Spec.deq
  by_cases h : i.val % 2 = 0
  · rw [if_pos h, if_pos h]; exact sub8_coe _ (low_bound _)
  · rw [if_neg h, if_neg h]; exact sub8_coe _ (high_bound _)

/-- The scaled weight at an entry: the dequantized value times the row's scale. -/
theorem v14_apply (packed : IVec S4096x2048 32) (scales : FVec Ideal S4096x1 .f32) (o i : Fin 4096) :
    Read.val_main_v14 (F := Ideal) packed scales (ix2 o i) = Cert.Spec.deq packed o i * scales (ix2 o 0) := by
  have e13 : Read.idx_main_v13 (ix2 o i) = ix2 o (0 : Fin 1) :=
    funext fun a => match a with | ⟨0, _⟩ => rfl | ⟨1, _⟩ => rfl
  rw [Read.val_main_v14_apply, v12_apply, Read.val_main_v13_apply, e13]
  rfl

/-- The accumulating scatter onto the scaled weights at an entry: the scaled weight plus the sum of the updates
    landing there, which is the specification's weight with the residual the scatter leaves. -/
theorem v30_apply (packed : IVec S4096x2048 32) (scales : FVec Ideal S4096x1 .f32) (vals : FVec Ideal S838860 .f32)
    (rows cols : IVec S838860 32) (o i : Fin 4096) :
    Read.val_main_v30 (F := Ideal) packed scales vals rows cols (ix2 o i)
      = Cert.Spec.weight packed scales
          (Cert.Spec.resid scatter_S4096x4096_S838860x2_S838860_n_01_01_1 (idxR rows cols) (updR vals)) o i := by
  unfold Cert.Spec.weight
  rw [← v14_apply]
  rfl

/-- The reference's result term (the generated run's, with the scatter's two operands named) is `G` of the
    arguments, the residual being the sum of the updates landing on each entry. -/
theorem ref_eq (x : FVec Ideal S4096x4096 .f32) (packed : IVec S4096x2048 32) (scales : FVec Ideal S4096x1 .f32)
    (vals : FVec Ideal S838860 .f32) (rows cols : IVec S838860 32) :
    (Host.dotGeneral dot_S4096x4096_S4096x4096_S4096x4096_1_0_0_1_n_n none x (transpose S4096x4096 [1, 0] (Host.scatterAdd scatter_S4096x4096_S838860x2_S838860_n_01_01_1 (mulf (sitofp .f32 (shapeCast _ (concatenate S4096x2048x2 2 [⟨S4096x2048x1, (broadcastInDim S4096x2048x1 ![0, 1] bcast_S4096x2048_S4096x2048x1_0_1 (subi (andi packed (broadcastInDim S4096x2048 ![] bcast_S_S4096x2048 (constantI S_ 32 15#32))) (broadcastInDim S4096x2048 ![] bcast_S_S4096x2048 (constantI S_ 32 8#32))))⟩, ⟨S4096x2048x1, (broadcastInDim S4096x2048x1 ![0, 1] bcast_S4096x2048_S4096x2048x1_0_1 (subi (Host.shrsi packed (broadcastInDim S4096x2048 ![] bcast_S_S4096x2048 (constantI S_ 32 4#32))) (broadcastInDim S4096x2048 ![] bcast_S_S4096x2048 (constantI S_ 32 8#32))))⟩] concatenates_S4096x2048x1_S4096x2048x1_S4096x2048x2_d2) shapeCasts_S4096x2048x2_S4096x4096)) (broadcastInDim S4096x4096 ![0, 1] bcast_S4096x1_S4096x4096_0_1 scales)) (idxR rows cols) (updR vals)) transposes_S4096x4096_S4096x4096_1_0) : FVec Ideal S4096x4096 .f32)
      = Cert.Spec.G x packed scales (Cert.Spec.resid scatter_S4096x4096_S838860x2_S838860_n_01_01_1 (idxR rows cols) (updR vals)) := by
  funext j
  obtain ⟨t, o, rfl⟩ : ∃ (t o : Fin 4096), j = ix2 t o := ⟨j 0, j 1, eq_ix2 j⟩
  refine (Read.val_main_v32_apply x packed scales vals rows cols (ix2 t o)).trans ?_
  show _ = ∑ k : Fin 4096, x (ix2 t k) * Cert.Spec.weight packed scales _ o k
  refine Finset.sum_congr rfl fun k _ => ?_
  have el : Read.lidx_main_v32 (ix2 t o) k = ix2 t k :=
    funext fun a => match a with | ⟨0, _⟩ => rfl | ⟨1, _⟩ => rfl
  have er : Read.idx_main_v31 (Read.ridx_main_v32 (ix2 t o) k) = ix2 o k :=
    funext fun a => match a with | ⟨0, _⟩ => rfl | ⟨1, _⟩ => rfl
  rw [el, Read.val_main_v31_apply, er, v30_apply]

end Cert.RefValue

end
-- ==== Proof.lean ====
/-
  The certificate of the int4-dequantized, residual-corrected linear layer `y = x · (dequant(packed, scales) + S)ᵀ`
  computed in two pallas_calls (a weight build; a blocked matrix product accumulating over the reduction axis)
  against its jnp reference.

  Frames: each of the two printed kernel programs runs as four segments (host operations, the weight build, one
  host operation, the matrix product); no segment writes an argument array (proof/Proof/K/Run.lean at the
  word level, proof/Proof/KI/Run.lean at the extended reals).  The reference is host operations only.
  The idealization rewrote nothing, so `preserves` is trivial.
  Value: over the extended reals both programs end with `Cert.Spec.G` of the arguments: entry (t, o) is the sum
  over the 4096 columns of `x[t, k]` times the weight `w[o, k]`, the weight being the signed four-bit integer
  (offset by eight) times the row's scale plus the residual accumulated at that entry.  On the kernel's side the
  residual is scattered into a zero array and added afterwards, the weights are built block by block, and the
  inner product is accumulated in four blocks of 1024 columns from zero (proof/Proof/KI/KernelValue.lean); on
  the reference's side the residual is scattered onto the dequantized weights and the product is one contraction
  (proof/Proof/RefValue.lean).  Addition on the extended reals is associative and commutative and zero is
  neutral, which is all the two arrangements differ by; the precondition (finite inputs) is not needed.
-/
import proofs.«429945_j6210522710042_2_alg».proof.Defs
import proofs.«429945_j6210522710042_2_alg».proof.Proof.Gen.Kernel
import proofs.«429945_j6210522710042_2_alg».proof.Proof.Gen.KernelIdeal
import proofs.«429945_j6210522710042_2_alg».proof.Proof.Gen.ReferenceIdeal
import proofs.«429945_j6210522710042_2_alg».proof.Proof.Gen.Pre_finite_inputs
import proofs.«429945_j6210522710042_2_alg».proof.Proof.Gen.ReferenceIdeal.Run
import proofs.«429945_j6210522710042_2_alg».proof.Proof.K.Run
import proofs.«429945_j6210522710042_2_alg».proof.Proof.KI.Run
import proofs.«429945_j6210522710042_2_alg».proof.Proof.KI.KernelValue
import proofs.«429945_j6210522710042_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frameH m ρ
theorem frame_ki : Cert.frame_KernelIdeal := fun m ρ _ => Cert.KernelIdeal.Gen.frameH m ρ
theorem frame_ri : Cert.frame_ReferenceIdeal := fun m ρ _ =>
  (θ_run Cert.ReferenceIdeal.defs _ _).mono (fun _ h c => (h c).2) (Cert.ReferenceIdeal.Value.run (F := Ideal) m ρ)

/-- The scatter's operands are the same functions of the index vectors and the values in the two programs
    (the same host operations in the same order), and the scatter's dimension numbers are the same record. -/
theorem resid_same (vals : FVec Ideal Cert.KernelIdeal.S838860 .f32) (rows cols : IVec Cert.KernelIdeal.S838860 32) :
    Cert.Spec.resid Cert.ReferenceIdeal.scatter_S4096x4096_S838860x2_S838860_n_01_01_1 (Cert.RefValue.idxR rows cols) (Cert.RefValue.updR vals)
      = Cert.Spec.resid Cert.KernelIdeal.scatter_S4096x4096_S838860x2_S838860_n_01_01_1 (Cert.KernelIdeal.Gen.idxK rows cols) (Cert.KernelIdeal.Gen.updK vals) := rfl

/-- Over the extended reals both programs end with `G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.Spec.resid Cert.KernelIdeal.scatter_S4096x4096_S838860x2_S838860_n_01_01_1
        (Cert.KernelIdeal.Gen.idxK (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
        (Cert.KernelIdeal.Gen.updK (m ((c.tc : Thread Cert.KernelIdeal.nD Cert.KernelIdeal.τ).loc Cert.KernelIdeal.main_arg3)))), ?_, ?_⟩
  · exact (θ_run Cert.KernelIdeal.defs _ _).mono
      (fun _ h c => ⟨(h c).1.trans (Cert.KernelIdeal.Gen.kernel_value m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.RefValue.ref_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).trans
      (congrArg (Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (resid_same _ _ _))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
